-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x200x2048 : Shape := ⟨3, ![512, 200, 2048]⟩
abbrev S512x200x3 : Shape := ⟨3, ![512, 200, 3]⟩
abbrev S_ : Shape := ⟨0, ![]⟩
abbrev S512x199x1 : Shape := ⟨3, ![512, 199, 1]⟩
abbrev S512x199 : Shape := ⟨2, ![512, 199]⟩

class Facts : Prop where
  bcast_S_S512x200x2048 : S_.BroadcastsInDim S512x200x2048 (![] : Fin 0 → Fin S512x200x2048.rank)
  reducesTo_S512x200x2048_S_d0_1_2 : S512x200x2048.ReducesTo [0, 1, 2] S_
  h_S_ : 0 < S_.numel
  slices_S512x200x3_S512x199x1_0_1_0 : S512x200x3.Slices ![0, 1, 0] S512x199x1
  shapeCasts_S512x199x1_S512x199 : S512x199x1.ShapeCasts S512x199
  bcast_S_S512x199 : S_.BroadcastsInDim S512x199 (![] : Fin 0 → Fin S512x199.rank)
  reducesTo_S512x199_S_d0_1 : S512x199.ReducesTo [0, 1] S_

variable [Facts]

def fn {F : FTy → Type} [FloatOps F] (main_arg0 : FVec F S512x200x2048 .f32) (main_arg1 : IVec S512x200x3 32) : IVec S_ 1 :=
  let main_v0 : FVec F S512x200x2048 .f32 := Host.absf main_arg0
  let main_cst : FVec F S_ .f32 := constant S_ .f32 0x7F800000#32
  let main_v1 : FVec F S512x200x2048 .f32 := broadcastInDim S512x200x2048 ![] bcast_S_S512x200x2048 main_cst
  let main_v2 : IVec S512x200x2048 1 := cmpf .olt main_v0 main_v1
  let main_c : IVec S_ 1 := constantI S_ 1 1#1
  let main_v3 : IVec S_ 1 := (fun x v => Host.reduce IntOp.andi x v reducesTo_S512x200x2048_S_d0_1_2 h_S_) main_v2 main_c
  let main_v4 : IVec S512x199x1 32 := (extractStridedSlice S512x199x1 ![0, 1, 0] · slices_S512x200x3_S512x199x1_0_1_0) main_arg1
  let main_v5 : IVec S512x199 32 := shapeCast S512x199 main_v4 shapeCasts_S512x199x1_S512x199
  let main_c_0 : IVec S_ 32 := constantI S_ 32 0#32
  let main_v6 : IVec S512x199 32 := broadcastInDim S512x199 ![] bcast_S_S512x199 main_c_0
  let main_v7 : IVec S512x199 1 := cmpi .sgt main_v5 main_v6
  let main_c_1 : IVec S_ 1 := constantI S_ 1 1#1
  let main_v8 : IVec S_ 1 := (fun x v => Host.reduce IntOp.andi x v reducesTo_S512x199_S_d0_1 h_S_) main_v7 main_c_1
  let main_v9 : IVec S_ 1 := andi main_v3 main_v8
  let main_v10 : IVec S512x199x1 32 := (extractStridedSlice S512x199x1 ![0, 1, 0] · slices_S512x200x3_S512x199x1_0_1_0) main_arg1
  let main_v11 : IVec S512x199 32 := shapeCast S512x199 main_v10 shapeCasts_S512x199x1_S512x199
  let main_c_2 : IVec S_ 32 := constantI S_ 32 2048#32
  let main_v12 : IVec S512x199 32 := broadcastInDim S512x199 ![] bcast_S_S512x199 main_c_2
  let main_v13 : IVec S512x199 1 := cmpi .sle main_v11 main_v12
  let main_c_3 : IVec S_ 1 := constantI S_ 1 1#1
  let main_v14 : IVec S_ 1 := (fun x v => Host.reduce IntOp.andi x v reducesTo_S512x199_S_d0_1 h_S_) main_v13 main_c_3
  let main_v15 : IVec S_ 1 := andi main_v9 main_v14
  main_v15
-- ==== Kernel.lean ====
abbrev S512x200x2048 : Shape := ⟨3, ![512, 200, 2048]⟩
abbrev S512x200x3 : Shape := ⟨3, ![512, 200, 3]⟩
abbrev S512x199x1 : Shape := ⟨3, ![512, 199, 1]⟩
abbrev S512x199 : Shape := ⟨2, ![512, 199]⟩
abbrev S_ : Shape := ⟨0, ![]⟩
abbrev S512x200 : Shape := ⟨2, ![512, 200]⟩
abbrev S512x1 : Shape := ⟨2, ![512, 1]⟩
abbrev S8x200x2048 : Shape := ⟨3, ![8, 200, 2048]⟩
abbrev S8x200 : Shape := ⟨2, ![8, 200]⟩
abbrev S8x1 : Shape := ⟨2, ![8, 1]⟩
abbrev S1x1x2048 : Shape := ⟨3, ![1, 1, 2048]⟩
abbrev S8x200x1 : Shape := ⟨3, ![8, 200, 1]⟩
abbrev S8 : Shape := ⟨1, ![8]⟩
abbrev S512 : Shape := ⟨1, ![512]⟩
abbrev S101888 : Shape := ⟨1, ![101888]⟩

abbrev nBuf : Space → Nat
  | .hbm => 48
  | .vmem => 12
  | .smem => 0
  | _ => 0

abbrev bufTy : (tb : Table) → Fin (tcTables nBuf tb) → BufTy
  | .hbm, ⟨0, _⟩ => ⟨S512x200x2048, .f32⟩
  | .hbm, ⟨1, _⟩ => ⟨S512x200x3, .i32⟩
  | .hbm, ⟨2, _⟩ => ⟨S512x199x1, .i32⟩
  | .hbm, ⟨3, _⟩ => ⟨S512x199, .i32⟩
  | .hbm, ⟨4, _⟩ => ⟨S512x199x1, .i32⟩
  | .hbm, ⟨5, _⟩ => ⟨S512x199, .i32⟩
  | .hbm, ⟨6, _⟩ => ⟨S512x199, .f32⟩
  | .hbm, ⟨7, _⟩ => ⟨S_, .i32⟩
  | .hbm, ⟨8, _⟩ => ⟨S512x199, .i32⟩
  | .hbm, ⟨9, _⟩ => ⟨S512x199, .i1⟩
  | .hbm, ⟨10, _⟩ => ⟨S512x199, .i1⟩
  | .hbm, ⟨11, _⟩ => ⟨S512x199, .i32⟩
  | .hbm, ⟨12, _⟩ => ⟨S_, .i32⟩
  | .hbm, ⟨13, _⟩ => ⟨S_, .i32⟩
  | .hbm, ⟨14, _⟩ => ⟨S512x199, .i32⟩
  | .hbm, ⟨15, _⟩ => ⟨S_, .i32⟩
  | .hbm, ⟨16, _⟩ => ⟨S512x199, .i32⟩
  | .hbm, ⟨17, _⟩ => ⟨S512x199, .i1⟩
  | .hbm, ⟨18, _⟩ => ⟨S512x199, .i1⟩
  | .hbm, ⟨19, _⟩ => ⟨S512x199, .f32⟩
  | .hbm, ⟨20, _⟩ => ⟨S_, .i32⟩
  | .hbm, ⟨21, _⟩ => ⟨S512x199, .i32⟩
  | .hbm, ⟨22, _⟩ => ⟨S512x199, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S512x199, .i32⟩
  | .hbm, ⟨27, _⟩ => ⟨S512x199, .i32⟩
  | .hbm, ⟨28, _⟩ => ⟨S_, .i32⟩
  | .hbm, ⟨29, _⟩ => ⟨S512x199, .i32⟩
  | .hbm, ⟨30, _⟩ => ⟨S512x199, .i32⟩
  | .hbm, ⟨31, _⟩ => ⟨S_, .i32⟩
  | .hbm, ⟨32, _⟩ => ⟨S_, .i32⟩
  | .hbm, ⟨33, _⟩ => ⟨S512x200, .i32⟩
  | .hbm, ⟨34, _⟩ => ⟨S_, .f32⟩
  | .hbm, ⟨35, _⟩ => ⟨S_, .f32⟩
  | .hbm, ⟨36, _⟩ => ⟨S512x200, .f32⟩
  | .hbm, ⟨37, _⟩ => ⟨S_, .f32⟩
  | .hbm, ⟨38, _⟩ => ⟨S_, .f32⟩
  | .hbm, ⟨39, _⟩ => ⟨S512x200, .f32⟩
  | .hbm, ⟨40, _⟩ => ⟨S512x200, .f32⟩
  | .hbm, ⟨41, _⟩ => ⟨S512x1, .f32⟩
  | .hbm, ⟨42, _⟩ => ⟨S512, .f32⟩
  | .hbm, ⟨43, _⟩ => ⟨S_, .f32⟩
  | .hbm, ⟨44, _⟩ => ⟨S_, .f32⟩
  | .hbm, ⟨45, _⟩ => ⟨S512x199, .f32⟩
  | .hbm, ⟨46, _⟩ => ⟨S101888, .f32⟩
  | .hbm, ⟨47, _⟩ => ⟨S101888, .f32⟩
  | .local _ .vmem, ⟨0, _⟩ => ⟨S8x200x2048, .f32⟩
  | .local _ .vmem, ⟨1, _⟩ => ⟨S8x200x2048, .f32⟩
  | .local _ .vmem, ⟨2, _⟩ => ⟨S8x200, .i32⟩
  | .local _ .vmem, ⟨3, _⟩ => ⟨S8x200, .i32⟩
  | .local _ .vmem, ⟨4, _⟩ => ⟨S8x200, .f32⟩
  | .local _ .vmem, ⟨5, _⟩ => ⟨S8x200, .f32⟩
  | .local _ .vmem, ⟨6, _⟩ => ⟨S8x200, .f32⟩
  | .local _ .vmem, ⟨7, _⟩ => ⟨S8x200, .f32⟩
  | .local _ .vmem, ⟨8, _⟩ => ⟨S8x200, .f32⟩
  | .local _ .vmem, ⟨9, _⟩ => ⟨S8x200, .f32⟩
  | .local _ .vmem, ⟨10, _⟩ => ⟨S8x1, .f32⟩
  | .local _ .vmem, ⟨11, _⟩ => ⟨S8x1, .f32⟩
  | _, _ => ⟨S512x200x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call1_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_c_3 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_v15 : Ref sig .tc := ⟨.hbm, 30, rfl⟩
abbrev main_c_4 : Ref sig .tc := ⟨.hbm, 31, rfl⟩
abbrev main_call4_v0 : Ref sig .tc := ⟨.hbm, 32, rfl⟩
abbrev main_v16 : Ref sig .tc := ⟨.hbm, 33, rfl⟩
abbrev main_cst : Ref sig .tc := ⟨.hbm, 34, rfl⟩
abbrev main_call5_v0 : Ref sig .tc := ⟨.hbm, 35, rfl⟩
abbrev main_v17 : Ref sig .tc := ⟨.hbm, 36, rfl⟩
abbrev main_cst_5 : Ref sig .tc := ⟨.hbm, 37, rfl⟩
abbrev main_call6_v0 : Ref sig .tc := ⟨.hbm, 38, rfl⟩
abbrev main_v18 : Ref sig .tc := ⟨.hbm, 39, rfl⟩
abbrev main_v19_0 : Ref sig .tc := ⟨.hbm, 40, rfl⟩
abbrev main_v19_1 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x200x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x200x3_S512x199x1_0_1_0 : S512x200x3.Slices ![0, 1, 0] S512x199x1
  shapeCasts_S512x199x1_S512x199 : S512x199x1.ShapeCasts S512x199
  slices_S512x200x3_S512x199x1_0_1_2 : S512x200x3.Slices ![0, 1, 2] S512x199x1
  bcast_S_S512x199 : S_.BroadcastsInDim S512x199 (![] : Fin 0 → Fin S512x199.rank)
  natLt_1_32 : 1 < 32
  bcast_S_S_ : S_.BroadcastsInDim S_ (![] : Fin 0 → Fin S_.rank)
  reduceWindows_S512x199_S512x199_w1s1p0_0_w199s1p198_0 : S512x199.ReduceWindows (![1, 199] : Fin 2 → Nat) ![1, 1] ![0, 198] ![0, 0] S512x199
  h_S_ : 0 < S_.numel
  pads_S512x199_S512x200_000_010 : S512x199.Pads (![0, 0] : Fin 2 → Nat) ![0, 1] ![0, 0] S512x200
  iota_S1x1x2048_d2_w32 : S1x1x2048.Iotas .tc 32 [2]
  inb_S8x200_S8x200_0_0 : ∀ a, (![0, 0] : Fin 2 → Nat) a + S8x200.size a ≤ S8x200.size a
  h_S8x200 : 0 < S8x200.numel
  shapeCasts_S8x200_S8x200 : S8x200.ShapeCasts S8x200
  shapeCasts_S8x200_S8x200x1 : S8x200.ShapeCasts S8x200x1
  broadcasts_S1x1x2048_S8x200x2048 : S1x1x2048.Broadcasts S8x200x2048
  broadcasts_S8x200x1_S8x200x2048 : S8x200x1.Broadcasts S8x200x2048
  inb_S8x200x2048_S8x200x2048_0_0_0 : ∀ a, (![0, 0, 0] : Fin 3 → Nat) a + S8x200x2048.size a ≤ S8x200x2048.size a
  h_S8x200x2048 : 0 < S8x200x2048.numel
  reduces_S8x200x2048_S8x200 : S8x200x2048.Reduces [2] S8x200
  reduces_S8x200_S8 : S8x200.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S512x1_S512 : S512x1.ShapeCasts S512
  reducesTo_S512_S_d0 : S512.ReducesTo [0] S_
  slices_S512x200_S512x199_0_0 : S512x200.Slices ![0, 0] S512x199
  shapeCasts_S512x199_S101888 : S512x199.ShapeCasts S101888
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x200x2048.size a ≤ S512x200x2048.size a
  hwx0_0 : ∀ i : grid0.Coords, EltTy.bits .f32 = 32 ∨ (Rect.block (s := S512x200x2048) S8x200x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x200.size a ≤ S512x200.size a
  hwx0_1 : ∀ i : grid0.Coords, EltTy.bits .i32 = 32 ∨ (Rect.block (s := S512x200) S8x200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x200.size a ≤ S512x200.size a
  hwx0_2 : ∀ i : grid0.Coords, EltTy.bits .f32 = 32 ∨ (Rect.block (s := S512x200) S8x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x200.size a ≤ S512x200.size a
  hwx0_3 : ∀ i : grid0.Coords, EltTy.bits .f32 = 32 ∨ (Rect.block (s := S512x200) S8x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x200.size a ≤ S512x200.size a
  hwx0_4 : ∀ i : grid0.Coords, EltTy.bits .f32 = 32 ∨ (Rect.block (s := S512x200) S8x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S512x1.size a
  hwx0_5 : ∀ i : grid0.Coords, EltTy.bits .f32 = 32 ∨ (Rect.block (s := S512x1) S8x1.size (cc0_transform_5 i) (hinb0_5 i)).WholeWords (EltTy.packing .f32)

variable [Facts₀]

abbrev win0_0 : Pipeline.Window sig grid0 :=
  Pipeline.Window.ofSpec (Memref.whole main_arg0) S8x200x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S8x200.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S8x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x200x2048 : Shape := ⟨3, ![512, 200, 2048]⟩
abbrev S512x200x3 : Shape := ⟨3, ![512, 200, 3]⟩
abbrev S512x199x1 : Shape := ⟨3, ![512, 199, 1]⟩
abbrev S512x199 : Shape := ⟨2, ![512, 199]⟩
abbrev S512x199x2048 : Shape := ⟨3, ![512, 199, 2048]⟩
abbrev S_ : Shape := ⟨0, ![]⟩
abbrev S512x199x1x1 : Shape := ⟨4, ![512, 199, 1, 1]⟩
abbrev S1 : Shape := ⟨1, ![1]⟩
abbrev S1x1x1x1 : Shape := ⟨4, ![1, 1, 1, 1]⟩
abbrev S512 : Shape := ⟨1, ![512]⟩
abbrev S101888 : Shape := ⟨1, ![101888]⟩

abbrev nBuf : Space → Nat
  | .hbm => 71
  | .vmem => 0
  | .smem => 0
  | _ => 0

abbrev bufTy : (tb : Table) → Fin (tcTables nBuf tb) → BufTy
  | .hbm, ⟨0, _⟩ => ⟨S512x200x2048, .f32⟩
  | .hbm, ⟨1, _⟩ => ⟨S512x200x3, .i32⟩
  | .hbm, ⟨2, _⟩ => ⟨S512x199x1, .i32⟩
  | .hbm, ⟨3, _⟩ => ⟨S512x199, .i32⟩
  | .hbm, ⟨4, _⟩ => ⟨S512x199x1, .i32⟩
  | .hbm, ⟨5, _⟩ => ⟨S512x199, .i32⟩
  | .hbm, ⟨6, _⟩ => ⟨S512x199, .f32⟩
  | .hbm, ⟨7, _⟩ => ⟨S512x199x2048, .f32⟩
  | .hbm, ⟨8, _⟩ => ⟨S_, .i32⟩
  | .hbm, ⟨9, _⟩ => ⟨S512x199, .i32⟩
  | .hbm, ⟨10, _⟩ => ⟨S512x199, .i32⟩
  | .hbm, ⟨11, _⟩ => ⟨S512x199x1, .i32⟩
  | .hbm, ⟨12, _⟩ => ⟨S_, .i32⟩
  | .hbm, ⟨13, _⟩ => ⟨S512x199x1, .i32⟩
  | .hbm, ⟨14, _⟩ => ⟨S512x199x1, .i1⟩
  | .hbm, ⟨15, _⟩ => ⟨S_, .i32⟩
  | .hbm, ⟨16, _⟩ => ⟨S512x199x1, .i32⟩
  | .hbm, ⟨17, _⟩ => ⟨S512x199x1, .i32⟩
  | .hbm, ⟨18, _⟩ => ⟨S512x199x1, .i32⟩
  | .hbm, ⟨19, _⟩ => ⟨S512x199x1x1, .i32⟩
  | .hbm, ⟨20, _⟩ => ⟨S1, .i32⟩
  | .hbm, ⟨21, _⟩ => ⟨S_, .i32⟩
  | .hbm, ⟨22, _⟩ => ⟨S512x199x1x1, .i32⟩
  | .hbm, ⟨23, _⟩ => ⟨S512x199x1x1, .i1⟩
  | .hbm, ⟨24, _⟩ => ⟨S1x1x1x1, .i32⟩
  | .hbm, ⟨25, _⟩ => ⟨S512x199x1x1, .i32⟩
  | .hbm, ⟨26, _⟩ => ⟨S512x199x1x1, .i1⟩
  | .hbm, ⟨27, _⟩ => ⟨S512x199x1x1, .i1⟩
  | .hbm, ⟨28, _⟩ => ⟨S_, .i1⟩
  | .hbm, ⟨29, _⟩ => ⟨S512x199x1, .i1⟩
  | .hbm, ⟨30, _⟩ => ⟨S512x199x1, .f32⟩
  | .hbm, ⟨31, _⟩ => ⟨S_, .f32⟩
  | .hbm, ⟨32, _⟩ => ⟨S512x199x1, .f32⟩
  | .hbm, ⟨33, _⟩ => ⟨S512x199x1, .f32⟩
  | .hbm, ⟨34, _⟩ => ⟨S512x199, .f32⟩
  | .hbm, ⟨35, _⟩ => ⟨S_, .i32⟩
  | .hbm, ⟨36, _⟩ => ⟨S512x199, .i32⟩
  | .hbm, ⟨37, _⟩ => ⟨S512x199, .i1⟩
  | .hbm, ⟨38, _⟩ => ⟨S512x199, .i1⟩
  | .hbm, ⟨39, _⟩ => ⟨S512x199, .i32⟩
  | .hbm, ⟨40, _⟩ => ⟨S_, .i32⟩
  | .hbm, ⟨41, _⟩ => ⟨S_, .i32⟩
  | .hbm, ⟨42, _⟩ => ⟨S512x199, .i32⟩
  | .hbm, ⟨43, _⟩ => ⟨S_, .i32⟩
  | .hbm, ⟨44, _⟩ => ⟨S512x199, .i32⟩
  | .hbm, ⟨45, _⟩ => ⟨S512x199, .i1⟩
  | .hbm, ⟨46, _⟩ => ⟨S512x199, .i1⟩
  | .hbm, ⟨47, _⟩ => ⟨S512x199, .f32⟩
  | .hbm, ⟨48, _⟩ => ⟨S512x199, .f32⟩
  | .hbm, ⟨49, _⟩ => ⟨S512x199, .f32⟩
  | .hbm, ⟨50, _⟩ => ⟨S_, .f32⟩
  | .hbm, ⟨51, _⟩ => ⟨S512x199, .f32⟩
  | .hbm, ⟨52, _⟩ => ⟨S512x199, .f32⟩
  | .hbm, ⟨53, _⟩ => ⟨S512x199, .f32⟩
  | .hbm, ⟨54, _⟩ => ⟨S512x199, .f32⟩
  | .hbm, ⟨55, _⟩ => ⟨S512x199, .f32⟩
  | .hbm, ⟨56, _⟩ => ⟨S512x199, .f32⟩
  | .hbm, ⟨57, _⟩ => ⟨S512x199, .f32⟩
  | .hbm, ⟨58, _⟩ => ⟨S512x199, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S_, .f32⟩
  | .hbm, ⟨68, _⟩ => ⟨S_, .f32⟩
  | .hbm, ⟨69, _⟩ => ⟨S101888, .f32⟩
  | .hbm, ⟨70, _⟩ => ⟨S101888, .f32⟩
  | _, _ => ⟨S512x200x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call2_v0 : Ref sig .tc := ⟨.hbm, 39, rfl⟩
abbrev main_call2_call0_c : Ref sig .tc := ⟨.hbm, 40, rfl⟩
abbrev main_call2_call0_v0 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_2 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_cst_4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩

abbrev nD : Nat := 1
abbrev τ : Topo := Topo.v7x

variable {F : FTy → Type} [FloatOps F]

class Facts₀ : Prop where
  slices_S512x200x3_S512x199x1_0_1_0 : S512x200x3.Slices ![0, 1, 0] S512x199x1
  shapeCasts_S512x199x1_S512x199 : S512x199x1.ShapeCasts S512x199
  slices_S512x200x3_S512x199x1_0_1_2 : S512x200x3.Slices ![0, 1, 2] S512x199x1
  slices_S512x200x2048_S512x199x2048_0_0_0 : S512x200x2048.Slices ![0, 0, 0] S512x199x2048
  bcast_S_S512x199 : S_.BroadcastsInDim S512x199 (![] : Fin 0 → Fin S512x199.rank)
  bcast_S512x199_S512x199x1_0_1 : S512x199.BroadcastsInDim S512x199x1 (![0, 1] : Fin 2 → Fin S512x199x1.rank)
  bcast_S_S512x199x1 : S_.BroadcastsInDim S512x199x1 (![] : Fin 0 → Fin S512x199x1.rank)
  shapeCasts_S512x199x1_S512x199x1x1 : S512x199x1.ShapeCasts S512x199x1x1
  bcast_S_S512x199x1x1 : S_.BroadcastsInDim S512x199x1x1 (![] : Fin 0 → Fin S512x199x1x1.rank)
  bcast_S1_S1x1x1x1_3 : S1.BroadcastsInDim S1x1x1x1 (![3] : Fin 1 → Fin S1x1x1x1.rank)
  bcast_S1x1x1x1_S512x199x1x1_0_1_2_3 : S1x1x1x1.BroadcastsInDim S512x199x1x1 (![0, 1, 2, 3] : Fin 4 → Fin S512x199x1x1.rank)
  reducesTo_S512x199x1x1_S512x199x1_d3 : S512x199x1x1.ReducesTo [3] S512x199x1
  h_S_ : 0 < S_.numel
  natLt_1_32 : 1 < 32
  bcast_S_S_ : S_.BroadcastsInDim S_ (![] : Fin 0 → Fin S_.rank)
  reduceWindows_S512x199_S512x199_w1s1p0_0_w199s1p198_0 : S512x199.ReduceWindows (![1, 199] : Fin 2 → Nat) ![1, 1] ![0, 198] ![0, 0] S512x199
  reducesTo_S512x199_S512_d1 : S512x199.ReducesTo [1] S512
  bcast_S_S512 : S_.BroadcastsInDim S512 (![] : Fin 0 → Fin S512.rank)
  reducesTo_S512_S_d0 : S512.ReducesTo [0] S_
  shapeCasts_S512x199_S101888 : S512x199.ShapeCasts S101888
  gather_S512x199x2048_S512x199x1x1_S512x199x1_n_2_01_01_2_3_111_wf : GatherDims.WF S512x199x2048 S512x199x1x1 S512x199x1 [] [2] [0, 1] [2] [0, 1] 3 ![1, 1, 1]

variable [Facts₀]

def gather_S512x199x2048_S512x199x1x1_S512x199x1_n_2_01_01_2_3_111 : GatherDims S512x199x2048 S512x199x1x1 S512x199x1 where
  offsetDims := []
  collapsedSliceDims := [2]
  operandBatchingDims := [0, 1]
  startIndicesBatchingDims := [0, 1]
  startIndexMap := [2]
  indexVectorDim := 3
  sliceSizes := ![1, 1, 1]
  wf := gather_S512x199x2048_S512x199x1x1_S512x199x1_n_2_01_01_2_3_111_wf

class Facts : Prop extends Facts₀ where

variable [Facts]
-- ==== Proof.RefRun.lean ====
/-
  The reference program's run. Its @main calls three private functions (take_along_axis, _flip and
  cumsum, which calls cumsum_0); here @main is ONE list of host operations, each callee's
  operations standing at its call site over that call's buffers, and this module states what
  every weakly fair execution leaves in the three result buffers, as named terms of the two argument
  arrays:

    q    = me[:, 1:, 0]                      a  = float(me[:, 1:, 2])
    vf   = float(flip(cumsum(flip(q > 0)) > 0))
    p    = take_along_axis(pred[:, :199, :], (q - 1)[..., None], axis = 2)[..., 0]
    loss = sum_b ( sum_t (-(a log p + (1 - a) log1p(-p)) * vf) / max(sum_t vf, 1) )

  and the results are (loss, p flattened, a flattened).
-/
import proofs.«401505_j76665166233883_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The result terms -/

/-- The question ids from the second time step on: column 0 of `me[:, 1:, :]`. -/
def qv (me : IVec S512x200x3 32) : IVec S512x199 32 :=
  shapeCast S512x199 (extractStridedSlice S512x199x1 ![0, 1, 0] me slices_S512x200x3_S512x199x1_0_1_0) shapeCasts_S512x199x1_S512x199

/-- The answers as floats: column 2 of `me[:, 1:, :]`. -/
def av (me : IVec S512x200x3 32) : FVec F S512x199 .f32 :=
  sitofp .f32 (shapeCast S512x199 (extractStridedSlice S512x199x1 ![0, 1, 2] me slices_S512x200x3_S512x199x1_0_1_2) shapeCasts_S512x199x1_S512x199)

/-- The keep mask as floats: position `t` is kept iff some `q[j] > 0` with `j ≥ t` (a reversed running count). -/
def vfv (q : IVec S512x199 32) : FVec F S512x199 .f32 :=
  uitofp .f32 (Host.reverse [1]
    (cmpi .sgt
      (Host.reduceWindow IntOp.addi ![1, 199] ![1, 1] ![0, 198] ![0, 0]
        (extui 32 (Host.reverse [1] (cmpi .sgt q (broadcastInDim S512x199 ![] bcast_S_S512x199 (constantI S_ 32 0#32)))) natLt_1_32)
        (broadcastInDim S_ ![] bcast_S_S_ (constantI S_ 32 0#32))
        reduceWindows_S512x199_S512x199_w1s1p0_0_w199s1p198_0 h_S_)
      (broadcastInDim S512x199 ![] bcast_S_S512x199 (constantI S_ 32 0#32))))

/-- The index take_along_axis gathers with: a negative index wraps once by the axis length. -/
def wrapIdx (idx : IVec S512x199x1 32) : IVec S512x199x1x1 32 :=
  shapeCast S512x199x1x1
    (select (cmpi .slt idx (broadcastInDim S512x199x1 ![] bcast_S_S512x199x1 (constantI S_ 32 0#32)))
      (addi idx (broadcastInDim S512x199x1 ![] bcast_S_S512x199x1 (constantI S_ 32 2048#32))) idx)
    shapeCasts_S512x199x1_S512x199x1x1

/-- Whether the wrapped index lies in `[0, 2047]`. -/
def inBounds (i5 : IVec S512x199x1x1 32) : IVec S512x199x1 1 :=
  Host.reduce IntOp.andi
    (andi (cmpi .sge i5 (broadcastInDim S512x199x1x1 ![] bcast_S_S512x199x1x1 (constantI S_ 32 0#32)))
      (cmpi .sle i5 (broadcastInDim S512x199x1x1 ![0, 1, 2, 3] bcast_S1x1x1x1_S512x199x1x1_0_1_2_3
        (broadcastInDim S1x1x1x1 ![3] bcast_S1_S1x1x1x1_3 (constantI S1 32 2047#32)))))
    (constantI S_ 1 1#1) reducesTo_S512x199x1x1_S512x199x1_d3 h_S_

/-- take_along_axis along the last axis: the gathered element where the wrapped index is in bounds, the NaN fill elsewhere. -/
def takeAlong (x : FVec F S512x199x2048 .f32) (idx : IVec S512x199x1 32) : FVec F S512x199x1 .f32 :=
  select (inBounds (wrapIdx idx))
    (Host.gather gather_S512x199x2048_S512x199x1x1_S512x199x1_n_2_01_01_2_3_111 x (wrapIdx idx))
    (broadcastInDim S512x199x1 ![] bcast_S_S512x199x1 (constant S_ .f32 0x7FC00000#32))

/-- The gathered probabilities `p[b, t] = pred[b, t, q[b, t] - 1]`. -/
def pv (pred : FVec F S512x200x2048 .f32) (q : IVec S512x199 32) : FVec F S512x199 .f32 :=
  shapeCast S512x199
    (takeAlong (extractStridedSlice S512x199x2048 ![0, 0, 0] pred slices_S512x200x2048_S512x199x2048_0_0_0)
      (broadcastInDim S512x199x1 ![0, 1] bcast_S512x199_S512x199x1_0_1
        (subi q (broadcastInDim S512x199 ![] bcast_S_S512x199 (constantI S_ 32 1#32)))))
    shapeCasts_S512x199x1_S512x199

/-- One student's mean masked cross-entropy. -/
def rowLoss (p a vf : FVec F S512x199 .f32) : FVec F S512 .f32 :=
  Host.divf
    (Host.reduceAdd
      (mulf
        (Host.negf
          (addf (mulf a (Host.log p))
            (mulf (subf (broadcastInDim S512x199 ![] bcast_S_S512x199 (constant S_ .f32 0x3F800000#32)) a) (Host.log1p (Host.negf p)))))
        vf)
      (constant S_ .f32 0x00000000#32) reducesTo_S512x199_S512_d1 h_S_)
    (maximumf (Host.reduceAdd vf (constant S_ .f32 0x00000000#32) reducesTo_S512x199_S512_d1 h_S_)
      (broadcastInDim S512 ![] bcast_S_S512 (constant S_ .f32 0x3F800000#32)))

/-- Result 0: the loss summed over the students. -/
def refLoss (pred : FVec F S512x200x2048 .f32) (me : IVec S512x200x3 32) : FVec F S_ .f32 :=
  Host.reduceAdd (rowLoss (pv pred (qv me)) (av me) (vfv (qv me))) (constant S_ .f32 0x00000000#32) reducesTo_S512_S_d0 h_S_

/-- Result 1: the gathered probabilities, flattened. -/
def refP (pred : FVec F S512x200x2048 .f32) (me : IVec S512x200x3 32) : FVec F S101888 .f32 :=
  shapeCast S101888 (pv pred (qv me)) shapeCasts_S512x199_S101888

/-- Result 2: the answers, flattened. -/
def refA (me : IVec S512x200x3 32) : FVec F S101888 .f32 :=
  shapeCast S101888 (av (F := F) me) shapeCasts_S512x199_S101888

/-! ## @main as a list of operations -/

/-- @main's operations in order; the callees' operations stand at their call sites, over the calls' buffers:
    take_along_axis (22, buffers `main_call0`), _flip (1, `main_call1`), cumsum (1 and cumsum_0's 3, `main_call2`),
    _flip (1, `main_call3`). -/
abbrev ops : List (HloOp τ sig (Elt F)) :=
  [ unary main_arg1 main_v0 ((extractStridedSlice S512x199x1 ![0, 1, 0] · slices_S512x200x3_S512x199x1_0_1_0) : (⟨S512x200x3, .i32⟩ : BufTy).Contents (Elt F) → (⟨S512x199x1, .i32⟩ : BufTy).Contents (Elt F)),
    reshape main_v0 main_v1 rfl shapeCasts_S512x199x1_S512x199,
    unary main_arg1 main_v2 ((extractStridedSlice S512x199x1 ![0, 1, 2] · slices_S512x200x3_S512x199x1_0_1_2) : (⟨S512x200x3, .i32⟩ : BufTy).Contents (Elt F) → (⟨S512x199x1, .i32⟩ : BufTy).Contents (Elt F)),
    reshape main_v2 main_v3 rfl shapeCasts_S512x199x1_S512x199,
    unary main_v3 main_v4 (sitofp .f32 : (⟨S512x199, .i32⟩ : BufTy).Contents (Elt F) → (⟨S512x199, .f32⟩ : BufTy).Contents (Elt F)),
    unary main_arg0 main_v5 ((extractStridedSlice S512x199x2048 ![0, 0, 0] · slices_S512x200x2048_S512x199x2048_0_0_0) : (⟨S512x200x2048, .f32⟩ : BufTy).Contents (Elt F) → (⟨S512x199x2048, .f32⟩ : BufTy).Contents (Elt F)),
    nullary main_c (constantI S_ 32 1#32),
    unary main_c main_v6 (broadcastInDim S512x199 ![] bcast_S_S512x199 : (⟨S_, .i32⟩ : BufTy).Contents (Elt F) → (⟨S512x199, .i32⟩ : BufTy).Contents (Elt F)),
    binary main_v1 main_v6 main_v7 (subi : (⟨S512x199, .i32⟩ : BufTy).Contents (Elt F) → (⟨S512x199, .i32⟩ : BufTy).Contents (Elt F) → (⟨S512x199, .i32⟩ : BufTy).Contents (Elt F)),
    unary main_v7 main_v8 (broadcastInDim S512x199x1 ![0, 1] bcast_S512x199_S512x199x1_0_1 : (⟨S512x199, .i32⟩ : BufTy).Contents (Elt F) → (⟨S512x199x1, .i32⟩ : BufTy).Contents (Elt F)),
    TRef.nullary main_call0.c (constantI S_ 32 0#32),
    TRef.unary main_call0.c main_call0.v0 (broadcastInDim S512x199x1 ![] bcast_S_S512x199x1),
    TRef.binary (.of main_v8 : TRef sig ⟨S512x199x1, .i32⟩) main_call0.v0 main_call0.v1 (cmpi .slt),
    TRef.nullary main_call0.c_0 (constantI S_ 32 2048#32),
    TRef.unary main_call0.c_0 main_call0.v2 (broadcastInDim S512x199x1 ![] bcast_S_S512x199x1),
    TRef.binary (.of main_v8 : TRef sig ⟨S512x199x1, .i32⟩) main_call0.v2 main_call0.v3 addi,
    TRef.ternary main_call0.v1 main_call0.v3 (.of main_v8 : TRef sig ⟨S512x199x1, .i32⟩) main_call0.v4 select,
    TRef.reshape main_call0.v4 main_call0.v5 rfl shapeCasts_S512x199x1_S512x199x1x1,
    TRef.nullary main_call0.c_1 (constantI S1 32 2047#32),
    TRef.nullary main_call0.c_2 (constantI S_ 32 0#32),
    TRef.unary main_call0.c_2 main_call0.v6 (broadcastInDim S512x199x1x1 ![] bcast_S_S512x199x1x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S512x199x1x1 ![0, 1, 2, 3] bcast_S1x1x1x1_S512x199x1x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S512x199x1x1_S512x199x1_d3 h_S_),
    TRef.binary (.of main_v5 : TRef sig ⟨S512x199x2048, .f32⟩) main_call0.v5 main_call0.v13 (fun x i => Host.gather gather_S512x199x2048_S512x199x1x1_S512x199x1_n_2_01_01_2_3_111 x i),
    TRef.nullary main_call0.cst (constant S_ .f32 0x7FC00000#32),
    TRef.unary main_call0.cst main_call0.v14 (broadcastInDim S512x199x1 ![] bcast_S_S512x199x1),
    TRef.ternary main_call0.v12 main_call0.v13 main_call0.v14 main_call0.v15 select,
    reshape main_v9 main_v10 rfl shapeCasts_S512x199x1_S512x199,
    nullary main_c_0 (constantI S_ 32 0#32),
    unary main_c_0 main_v11 (broadcastInDim S512x199 ![] bcast_S_S512x199 : (⟨S_, .i32⟩ : BufTy).Contents (Elt F) → (⟨S512x199, .i32⟩ : BufTy).Contents (Elt F)),
    binary main_v1 main_v11 main_v12 (cmpi .sgt : (⟨S512x199, .i32⟩ : BufTy).Contents (Elt F) → (⟨S512x199, .i32⟩ : BufTy).Contents (Elt F) → (⟨S512x199, .i1⟩ : BufTy).Contents (Elt F)),
    TRef.unary (.of main_v12 : TRef sig ⟨S512x199, .i1⟩) main_call1.v0 (Host.reverse [1]),
    TRef.unary (.of main_v13 : TRef sig ⟨S512x199, .i1⟩) main_call2.v0 (extui 32 · natLt_1_32),
    TRef.nullary main_call2.call0.c (constantI S_ 32 0#32),
    TRef.unary main_call2.call0.c main_call2.call0.v0 (broadcastInDim S_ ![] bcast_S_S_),
    TRef.binary main_call2.v0 main_call2.call0.v0 main_call2.call0.v1 (fun x v => Host.reduceWindow IntOp.addi ![1, 199] ![1, 1] ![0, 198] ![0, 0] x v reduceWindows_S512x199_S512x199_w1s1p0_0_w199s1p198_0 h_S_),
    nullary main_c_1 (constantI S_ 32 0#32),
    unary main_c_1 main_v15 (broadcastInDim S512x199 ![] bcast_S_S512x199 : (⟨S_, .i32⟩ : BufTy).Contents (Elt F) → (⟨S512x199, .i32⟩ : BufTy).Contents (Elt F)),
    binary main_v14 main_v15 main_v16 (cmpi .sgt : (⟨S512x199, .i32⟩ : BufTy).Contents (Elt F) → (⟨S512x199, .i32⟩ : BufTy).Contents (Elt F) → (⟨S512x199, .i1⟩ : BufTy).Contents (Elt F)),
    TRef.unary (.of main_v16 : TRef sig ⟨S512x199, .i1⟩) main_call3.v0 (Host.reverse [1]),
    unary main_v17 main_v18 (uitofp .f32 : (⟨S512x199, .i1⟩ : BufTy).Contents (Elt F) → (⟨S512x199, .f32⟩ : BufTy).Contents (Elt F)),
    unary main_v10 main_v19 (Host.log : (⟨S512x199, .f32⟩ : BufTy).Contents (Elt F) → (⟨S512x199, .f32⟩ : BufTy).Contents (Elt F)),
    binary main_v4 main_v19 main_v20 (mulf : (⟨S512x199, .f32⟩ : BufTy).Contents (Elt F) → (⟨S512x199, .f32⟩ : BufTy).Contents (Elt F) → (⟨S512x199, .f32⟩ : BufTy).Contents (Elt F)),
    nullary main_cst (constant S_ .f32 0x3F800000#32),
    unary main_cst main_v21 (broadcastInDim S512x199 ![] bcast_S_S512x199 : (⟨S_, .f32⟩ : BufTy).Contents (Elt F) → (⟨S512x199, .f32⟩ : BufTy).Contents (Elt F)),
    binary main_v21 main_v4 main_v22 (subf : (⟨S512x199, .f32⟩ : BufTy).Contents (Elt F) → (⟨S512x199, .f32⟩ : BufTy).Contents (Elt F) → (⟨S512x199, .f32⟩ : BufTy).Contents (Elt F)),
    unary main_v10 main_v23 (Host.negf : (⟨S512x199, .f32⟩ : BufTy).Contents (Elt F) → (⟨S512x199, .f32⟩ : BufTy).Contents (Elt F)),
    unary main_v23 main_v24 (Host.log1p : (⟨S512x199, .f32⟩ : BufTy).Contents (Elt F) → (⟨S512x199, .f32⟩ : BufTy).Contents (Elt F)),
    binary main_v22 main_v24 main_v25 (mulf : (⟨S512x199, .f32⟩ : BufTy).Contents (Elt F) → (⟨S512x199, .f32⟩ : BufTy).Contents (Elt F) → (⟨S512x199, .f32⟩ : BufTy).Contents (Elt F)),
    binary main_v20 main_v25 main_v26 (addf : (⟨S512x199, .f32⟩ : BufTy).Contents (Elt F) → (⟨S512x199, .f32⟩ : BufTy).Contents (Elt F) → (⟨S512x199, .f32⟩ : BufTy).Contents (Elt F)),
    unary main_v26 main_v27 (Host.negf : (⟨S512x199, .f32⟩ : BufTy).Contents (Elt F) → (⟨S512x199, .f32⟩ : BufTy).Contents (Elt F)),
    binary main_v27 main_v18 main_v28 (mulf : (⟨S512x199, .f32⟩ : BufTy).Contents (Elt F) → (⟨S512x199, .f32⟩ : BufTy).Contents (Elt F) → (⟨S512x199, .f32⟩ : BufTy).Contents (Elt F)),
    nullary main_cst_2 (constant S_ .f32 0x00000000#32),
    binary main_v28 main_cst_2 main_v29 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    nullary main_cst_3 (constant S_ .f32 0x00000000#32),
    binary main_v18 main_cst_3 main_v30 ((fun x v => Host.reduceAdd x v reducesTo_S512x199_S512_d1 h_S_) : (⟨S512x199, .f32⟩ : BufTy).Contents (Elt F) → (⟨S_, .f32⟩ : BufTy).Contents (Elt F) → (⟨S512, .f32⟩ : BufTy).Contents (Elt F)),
    nullary main_cst_4 (constant S_ .f32 0x3F800000#32),
    unary main_cst_4 main_v31 (broadcastInDim S512 ![] bcast_S_S512 : (⟨S_, .f32⟩ : BufTy).Contents (Elt F) → (⟨S512, .f32⟩ : BufTy).Contents (Elt F)),
    binary main_v30 main_v31 main_v32 (maximumf : (⟨S512, .f32⟩ : BufTy).Contents (Elt F) → (⟨S512, .f32⟩ : BufTy).Contents (Elt F) → (⟨S512, .f32⟩ : BufTy).Contents (Elt F)),
    binary main_v29 main_v32 main_v33 (Host.divf : (⟨S512, .f32⟩ : BufTy).Contents (Elt F) → (⟨S512, .f32⟩ : BufTy).Contents (Elt F) → (⟨S512, .f32⟩ : BufTy).Contents (Elt F)),
    nullary main_cst_5 (constant S_ .f32 0x00000000#32),
    binary main_v33 main_cst_5 main_v34 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    reshape main_v10 main_v35 rfl shapeCasts_S512x199_S101888,
    reshape main_v4 main_v36 rfl shapeCasts_S512x199_S101888 ]

-- sixty-nine binds re-associated: the rewrite under the chain recurses once per statement
set_option maxRecDepth 2048 in
/-- @main is that straight line: the callees' definitions unfolded at their calls, both sides one chain of steps. -/
theorem main_eq (c : Dev nD) : main (F := F) c = seq ops := by
  simp only [main, fn_take_along_axis.body, fn_flip.body, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., unary_bufs_sub .., unary_bufs_sub ..,
    nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    reshape_bufs_sub .., nullary_bufs_sub .., unary_bufs_sub .., binary_bufs_sub .., unary_bufs_sub ..,
    unary_bufs_sub .., nullary_bufs_sub .., unary_bufs_sub .., binary_bufs_sub ..,
    nullary_bufs_sub .., unary_bufs_sub .., binary_bufs_sub .., unary_bufs_sub ..,
    unary_bufs_sub .., unary_bufs_sub .., binary_bufs_sub .., nullary_bufs_sub .., unary_bufs_sub .., binary_bufs_sub ..,
    unary_bufs_sub .., unary_bufs_sub .., binary_bufs_sub .., binary_bufs_sub .., unary_bufs_sub .., binary_bufs_sub ..,
    nullary_bufs_sub .., binary_bufs_sub .., nullary_bufs_sub .., binary_bufs_sub .., nullary_bufs_sub .., unary_bufs_sub ..,
    binary_bufs_sub .., binary_bufs_sub .., nullary_bufs_sub .., binary_bufs_sub .., reshape_bufs_sub .., reshape_bufs_sub ..⟩

/-! ## What the fold leaves in the results: the named terms

The operations' fold at a result buffer is the composed term by computation; the reductions, the gather and the
running count are kept folded meanwhile (the equation never looks inside them). -/

attribute [local irreducible] Host.reduce Host.reduceAdd Host.gather Host.reduceWindow Host.reverse in
theorem loss_eq (V : Valuation τ sig (Elt F)) :
    after ops V (main_v34 : DevRef τ sig) = refLoss (V (main_arg0 : DevRef τ sig)) (V (main_arg1 : DevRef τ sig)) := by
  after_results_simp
  rfl

attribute [local irreducible] Host.reduce Host.reduceAdd Host.gather Host.reduceWindow Host.reverse in
theorem p_eq (V : Valuation τ sig (Elt F)) :
    after ops V (main_v35 : DevRef τ sig) = refP (V (main_arg0 : DevRef τ sig)) (V (main_arg1 : DevRef τ sig)) := by
  after_results_simp
  rfl

attribute [local irreducible] Host.reduce Host.reduceAdd Host.gather Host.reduceWindow Host.reverse in
theorem a_eq (V : Valuation τ sig (Elt F)) :
    after ops V (main_v36 : DevRef τ sig) = refA (V (main_arg1 : DevRef τ sig)) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- On every device, from any memory with zero counters: every weakly fair execution of @main terminates with the
    three results at `refLoss`, `refP`, `refA` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = refLoss (m ((c.tc : Thread nD τ).loc main_arg0)) (m ((c.tc : Thread nD τ).loc main_arg1))
      ∧ r.2.mem ((c.tc : Thread nD τ).loc main_v35) = refP (m ((c.tc : Thread nD τ).loc main_arg0)) (m ((c.tc : Thread nD τ).loc main_arg1))
      ∧ r.2.mem ((c.tc : Thread nD τ).loc main_v36) = refA (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (loss_eq _), (h c main_v35).trans (p_eq _),
      (h c main_v36).trans (a_eq _), (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.KTerms.lean ====
/-
  The kernel program's three results as named terms of the two argument arrays.

  Before the region @main computes, exactly as the reference does, q = me[:, 1:, 0], a = float(me[:, 1:, 2]) and the
  keep mask vf; then the gather column qidx = min(2047, max(0, q - 1)); and pads the three [512, 199] arrays with one
  extra column (index 0, mask 0, answer 0) to [512, 200]. The region turns them, 8 students at a time, into

    G4[b, t]    = sum over h < 2048 of (pred[b, t, h] if h = qidx[b, t] else 0)           (the one-hot gather)
    G5[b, 0]    = (sum over t < 200 of bce(a[b, t], p'[b, t]) * vf[b, t]) / max(sum over t < 200 of vf[b, t], 1)

  where p' is G4 where the mask is positive and 1/2 elsewhere, and bce(a, p) = 0 - (a log p + (1 - a) log1p(0 - p)).
  After the region: loss = sum of G5[:, 0], p = G4[:, :199] flattened, a flattened.
-/
import proofs.«401505_j76665166233883_3_alg».proof.Proof.Gen.KernelIdeal
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.ValueIdx

variable {F : FTy → Type} [FloatOps F]

/-! ## The host side before the region -/

/-- The question ids from the second time step on: column 0 of `me[:, 1:, :]`. -/
def qv (me : IVec S512x200x3 32) : IVec S512x199 32 :=
  shapeCast S512x199 (extractStridedSlice S512x199x1 ![0, 1, 0] me slices_S512x200x3_S512x199x1_0_1_0) shapeCasts_S512x199x1_S512x199

/-- The answers as floats: column 2 of `me[:, 1:, :]`. -/
def av (me : IVec S512x200x3 32) : FVec F S512x199 .f32 :=
  sitofp .f32 (shapeCast S512x199 (extractStridedSlice S512x199x1 ![0, 1, 2] me slices_S512x200x3_S512x199x1_0_1_2) shapeCasts_S512x199x1_S512x199)

/-- The keep mask as floats: position `t` is kept iff some `q[j] > 0` with `j ≥ t` (a reversed running count). -/
def vfv (q : IVec S512x199 32) : FVec F S512x199 .f32 :=
  uitofp .f32 (Host.reverse [1]
    (cmpi .sgt
      (Host.reduceWindow IntOp.addi ![1, 199] ![1, 1] ![0, 198] ![0, 0]
        (extui 32 (Host.reverse [1] (cmpi .sgt q (broadcastInDim S512x199 ![] bcast_S_S512x199 (constantI S_ 32 0#32)))) natLt_1_32)
        (broadcastInDim S_ ![] bcast_S_S_ (constantI S_ 32 0#32))
        reduceWindows_S512x199_S512x199_w1s1p0_0_w199s1p198_0 h_S_)
      (broadcastInDim S512x199 ![] bcast_S_S512x199 (constantI S_ 32 0#32))))

/-- The gather column: `q - 1` clamped into `[0, 2047]`. -/
def qidx (q : IVec S512x199 32) : IVec S512x199 32 :=
  minsi (broadcastInDim S512x199 ![] bcast_S_S512x199 (constantI S_ 32 2047#32))
    (maxsi (broadcastInDim S512x199 ![] bcast_S_S512x199 (constantI S_ 32 0#32))
      (subi q (broadcastInDim S512x199 ![] bcast_S_S512x199 (constantI S_ 32 1#32))))

/-- The gather column padded with one extra column of zeros. -/
def qidxFull (q : IVec S512x199 32) : IVec S512x200 32 :=
  pad S512x200 ![0, 0] ![0, 1] ![0, 0] (qidx q) (constantI S_ 32 0#32) pads_S512x199_S512x200_000_010 h_S_

/-- A float array padded with one extra column of zeros. -/
def padCol (x : FVec F S512x199 .f32) : FVec F S512x200 .f32 :=
  pad S512x200 ![0, 0] ![0, 1] ![0, 0] x (constant S_ .f32 0x00000000#32) pads_S512x199_S512x200_000_010 h_S_

/-! ## What the region leaves in its two output arrays, index by index, at the extended reals -/

/-- One position's masked cross-entropy term as the kernel body computes it: the probability replaced by 1/2 where the
    mask is not positive, the term then multiplied by the mask. -/
def bceMasked (a p v : EReal) : EReal :=
  (Ideal.ofBits .f32 0x00000000#32
      - (a * Ideal.log (if 0 < v then p else Ideal.ofBits .f32 0x3F000000#32)
          + (Ideal.ofBits .f32 0x3F800000#32 - a)
            * Ideal.log1p (Ideal.ofBits .f32 0x00000000#32 - (if 0 < v then p else Ideal.ofBits .f32 0x3F000000#32)))) * v

/-- The gathered probabilities as a one-hot sum over the 2048 questions. -/
def G4 (pred : FVec Ideal S512x200x2048 .f32) (qf : IVec S512x200 32) : FVec Ideal S512x200 .f32 := fun j =>
  ∑ h : Fin 2048, if BitVec.ofNat 32 h.val = qf j then pred (ix3 (j 0) (j 1) h) else 0

/-- Each student's mean masked cross-entropy over the 200 padded positions. -/
def G5 (pred : FVec Ideal S512x200x2048 .f32) (qf : IVec S512x200 32) (vff aff : FVec Ideal S512x200 .f32) :
    FVec Ideal S512x1 .f32 := fun j =>
  Ideal.div (∑ t : Fin 200, bceMasked (aff (ix2 (j 0) t)) (G4 pred qf (ix2 (j 0) t)) (vff (ix2 (j 0) t)))
    (max (∑ t : Fin 200, vff (ix2 (j 0) t)) (Ideal.ofBits .f32 0x3F800000#32))

/-! ## The three results -/

/-- Result 0: the loss summed over the students. -/
def kLoss (pred : FVec Ideal S512x200x2048 .f32) (me : IVec S512x200x3 32) : FVec Ideal S_ .f32 :=
  Host.reduceAdd
    (shapeCast S512 (G5 pred (qidxFull (qv me)) (padCol (vfv (qv me))) (padCol (av me))) shapeCasts_S512x1_S512)
    (constant S_ .f32 0x00000000#32) reducesTo_S512_S_d0 h_S_

/-- Result 1: the gathered probabilities without the padded column, flattened. -/
def kP (pred : FVec Ideal S512x200x2048 .f32) (me : IVec S512x200x3 32) : FVec Ideal S101888 .f32 :=
  shapeCast S101888 (extractStridedSlice S512x199 ![0, 0] (G4 pred (qidxFull (qv me))) slices_S512x200_S512x199_0_0)
    shapeCasts_S512x199_S101888

/-- Result 2: the answers, flattened. -/
def kA (me : IVec S512x200x3 32) : FVec Ideal S101888 .f32 :=
  shapeCast S101888 (av (F := Ideal) me) shapeCasts_S512x199_S101888

end Cert.KernelIdeal.KValue

end
-- ==== Proof.KHost.lean ====
/-
  What the region finds in the arrays it stages: the host operations before the region, read back as the named terms
  of the argument array `me` (the gather column, the mask and the answers, each padded by one column), and the
  unpadded answers that the lines after the region flatten.
-/
import proofs.«401505_j76665166233883_3_alg».proof.Proof.Gen.KernelIdeal.Frame
import proofs.«401505_j76665166233883_3_alg».proof.Proof.KTerms
import Idealize.ShloMosaic.Lib.StableHlo.Run

noncomputable section

open scoped BigOperators

namespace Cert.KernelIdeal.KHost

open Cert.KernelIdeal Cert.KernelIdeal.Gen Cert.KernelIdeal.KValue Idealize.ShloMosaic Idealize.ShloMosaic.TcCoe Idealize.SL.Sem

variable {F : FTy → Type} [FloatOps F]
variable (m : (ℓ : Loc nD τ sig) → Buf (Elt F) ℓ)

attribute [local irreducible] Host.reduceWindow Host.reverse pad in
/-- Window 1's array at region entry: the clamped, padded gather column. -/
theorem V_main_v16 (c : Dev nD) :
    (V m c main_v16 : IVec S512x200 32) = qidxFull (qv (m ((c : Thread nD τ).loc main_arg1))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

attribute [local irreducible] Host.reduceWindow Host.reverse pad in
/-- Window 2's array at region entry: the padded keep mask. -/
theorem V_main_v17 (c : Dev nD) :
    (V m c main_v17 : FVec F S512x200 .f32) = padCol (vfv (qv (m ((c : Thread nD τ).loc main_arg1)))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

attribute [local irreducible] Host.reduceWindow Host.reverse pad in
/-- Window 3's array at region entry: the padded answers. -/
theorem V_main_v18 (c : Dev nD) :
    (V m c main_v18 : FVec F S512x200 .f32) = padCol (av (m ((c : Thread nD τ).loc main_arg1))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- The unpadded answers at region entry. -/
theorem V0_main_v4 (c : Dev nD) :
    (V0 m c (Proc.devRef .tc main_v4) : FVec F S512x199 .f32) = av (m ((c : Thread nD τ).loc main_arg1)) := by
  dsimp only [V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

end Cert.KernelIdeal.KHost

end
-- ==== Proof.KBlocks.lean ====
/-
  The kernel body's two stored blocks read at an index, at the extended reals: row r of the 8-student block holds, at
  position t, the one-hot sum of that row of the probabilities block against the gather column, and, in its single
  loss column, the row's masked cross-entropy sum over the 200 positions divided by max(sum of the mask, 1).
-/
import proofs.«401505_j76665166233883_3_alg».proof.Proof.Gen.KernelIdeal.Frame
import proofs.«401505_j76665166233883_3_alg».proof.Proof.KTerms
import Idealize.ShloMosaic.Lib.ValueIdx
import Idealize.ShloMosaic.Lib.Pipeline.Value
import Idealize.ShloMosaic.PureOps.Ideal.Laws

noncomputable section

open scoped BigOperators

namespace Cert.KernelIdeal.KBlocks

open Cert.KernelIdeal Cert.KernelIdeal.Gen Cert.KernelIdeal.KValue Idealize.ShloMosaic Idealize.ShloMosaic.ValueIdx

/-- The rank-2 zero offsets are the constant zero function. -/
private theorem hz2 : (![0, 0] : Fin 2 → Nat) = fun _ => 0 := funext fun a => by fin_cases a <;> rfl
/-- The rank-3 zero offsets are the constant zero function. -/
private theorem hz3 : (![0, 0, 0] : Fin 3 → Nat) = fun _ => 0 := funext fun a => by fin_cases a <;> rfl

/-- The probabilities block after the body is the one-hot lane sum of the loaded blocks. -/
theorem out0_4_eq (x0 : Vec Ideal S8x200x2048 .f32) (x1 : Vec Ideal S8x200 .i32) (x2 x3 : Vec Ideal S8x200 .f32) :
    out0_4 x0 x1 x2 x3 = k0_pay2 x1 x0 := by
  unfold out0_4
  rw [View.canon_unit_zero hz2]
  simp only [View.ld_unit_zero (S := S8x200) hz2, View.ld_unit_zero (S := S8x200x2048) hz3]

/-- A select on the equality test of two words is the `if` on their equality. -/
theorem select_cmpi_eq {α : Type} {w : Nat} (a b : BitVec w) (x y : α) :
    Scalar.select (IntOp.cmpi .eq a b) x y = if a = b then x else y := by
  show (if BitVec.ofBool (a == b) = 1#1 then x else y) = _
  by_cases h : a = b
  · subst h; simp
  · have hb : (a == b) = false := beq_eq_false_iff_ne.mpr h
    rw [hb, if_neg h]
    exact if_neg (by decide)

/-- The lane counter broadcast over the block reads the lane's number. -/
theorem iota_bcast_apply (r : Fin 8) (t : Fin 200) (h : Fin 2048) :
    broadcastTo S8x200x2048 (iota Kind.tc S1x1x2048 32 [2] iota_S1x1x2048_d2_w32) broadcasts_S1x1x2048_S8x200x2048 (ix3 r t h)
      = BitVec.ofNat 32 h.val := by
  refine (broadcastTo_apply _ broadcasts_S1x1x2048_S8x200x2048 (ix3 r t h) (ix3 (0 : Fin 1) (0 : Fin 1) h) (fun a => ?_)).trans ?_
  · match a with
    | ⟨0, _⟩ => rfl
    | ⟨1, _⟩ => rfl
    | ⟨2, _⟩ => rfl
  · exact iota_single_apply Kind.tc S1x1x2048 32 2 iota_S1x1x2048_d2_w32 (ix3 (0 : Fin 1) (0 : Fin 1) h)

/-- The gather column, given a unit lane axis and broadcast over the lanes, reads the column's entry. -/
theorem col_bcast_apply (v1 : IVec S8x200 32) (r : Fin 8) (t : Fin 200) (h : Fin 2048) :
    broadcastTo S8x200x2048
          (shapeCast S8x200x1 (shapeCast S8x200 v1 shapeCasts_S8x200_S8x200) shapeCasts_S8x200_S8x200x1)
          broadcasts_S8x200x1_S8x200x2048 (ix3 r t h) = v1 (ix2 r t) := by
  refine (broadcastTo_apply _ broadcasts_S8x200x1_S8x200x2048 (ix3 r t h) (ix3 r t (0 : Fin 1)) (fun a => ?_)).trans ?_
  · match a with
    | ⟨0, _⟩ => rfl
    | ⟨1, _⟩ => rfl
    | ⟨2, _⟩ => rfl
  · refine (shapeCast_apply _ shapeCasts_S8x200_S8x200x1 (ix3 r t (0 : Fin 1)) (ix2 r t) ?_).trans ?_
    · rw [Shape.rowMajor_val_two, Shape.rowMajor_val_three]
      show r.val * 200 + t.val = (r.val * 200 + t.val) * 1 + 0
      omega
    · rw [shapeCast_self]

/-- The one-hot lane sum at position `(r, t)`: the sum over the 2048 questions of the probability where the question's
    number is the gather column's entry, zero elsewhere. -/
theorem k0_pay2_apply (v1 : Vec Ideal S8x200 .i32) (v7 : Vec Ideal S8x200x2048 .f32) (r : Fin 8) (t : Fin 200) :
    k0_pay2 v1 v7 (ix2 r t)
      = ∑ h : Fin 2048, if BitVec.ofNat 32 h.val = (v1 (ix2 r t) : BitVec 32) then v7 (ix3 r t h) else 0 := by
  unfold k0_pay2
  refine (Ideal.multiReduction_add_single (φ := .f32) _ 0x00000000#32 reduces_S8x200x2048_S8x200 (.inl rfl) rfl (ix2 r t)).trans ?_
  show ∑ h : Fin 2048, _ = _
  refine Finset.sum_congr rfl fun h _ => ?_
  have hidx : reduces_S8x200x2048_S8x200.lift (ix2 r t) h = ix3 r t h :=
    funext fun a => Fin.ext (by match a with | ⟨0, _⟩ => rfl | ⟨1, _⟩ => rfl | ⟨2, _⟩ => rfl)
  rw [hidx]
  show Scalar.select (IntOp.cmpi .eq (broadcastTo S8x200x2048 (iota Kind.tc S1x1x2048 32 [2] iota_S1x1x2048_d2_w32) broadcasts_S1x1x2048_S8x200x2048 (ix3 r t h))
        (broadcastTo S8x200x2048
          (shapeCast S8x200x1 (shapeCast S8x200 v1 shapeCasts_S8x200_S8x200) shapeCasts_S8x200_S8x200x1)
          broadcasts_S8x200x1_S8x200x2048 (ix3 r t h))) (v7 (ix3 r t h)) (Ideal.ofBits .f32 0x00000000#32) = _
  rw [iota_bcast_apply, col_bcast_apply, select_cmpi_eq, Ideal.ofBits_zero_f32]

/-- The loss block after the body is the row quotient, given a unit column axis. -/
theorem out0_5_eq (x0 : Vec Ideal S8x200x2048 .f32) (x1 : Vec Ideal S8x200 .i32) (x2 x3 : Vec Ideal S8x200 .f32) :
    out0_5 x0 x1 x2 x3 = k0_pay1 (k0_pay3 x1 x0 x3 x2) := by
  unfold out0_5
  rw [View.canon_unit_zero hz2]
  simp only [View.ld_unit_zero (S := S8x200) hz2, View.ld_unit_zero (S := S8x200x2048) hz3]

/-- A select on "the mask is greater than the zero word" is the `if` on the mask being positive. -/
theorem select_ogt_zero {α : Type} (v : EReal) (p q : α) :
    Scalar.select (Ideal.cmp .ogt v (Ideal.ofBits .f32 0x00000000#32)) p q = if 0 < v then p else q := by
  show (if BitVec.ofBool (decide (Ideal.ofBits .f32 0x00000000#32 < v)) = 1#1 then p else q) = _
  rw [Ideal.ofBits_zero_f32]
  by_cases h : 0 < v
  · rw [if_pos h, decide_eq_true h]; exact if_pos rfl
  · rw [if_neg h, decide_eq_false h]; exact if_neg (by decide)

/-- The row quotient at row `r`: the masked cross-entropy terms summed over the 200 positions, divided by
    max(sum of the mask, 1). -/
theorem k0_pay3_apply (v1 : Vec Ideal S8x200 .i32) (v7 : Vec Ideal S8x200x2048 .f32) (v12 v14 : Vec Ideal S8x200 .f32) (r : Fin 8) :
    k0_pay3 v1 v7 v12 v14 (ix1 r)
      = Ideal.div (∑ t : Fin 200, bceMasked (v12 (ix2 r t)) (k0_pay2 v1 v7 (ix2 r t)) (v14 (ix2 r t)))
          (max (∑ t : Fin 200, v14 (ix2 r t)) (Ideal.ofBits .f32 0x3F800000#32)) := by
  unfold k0_pay3
  simp only [shapeCast_self]
  refine (divf_apply _ _ _).trans ?_
  refine congrArg₂ Ideal.div ?_ ?_
  · refine (Ideal.multiReduction_add_single (φ := .f32) _ 0x00000000#32 reduces_S8x200_S8 (.inl rfl) rfl (ix1 r)).trans ?_
    show ∑ t : Fin 200, _ = _
    refine Finset.sum_congr rfl fun t _ => ?_
    have hidx : reduces_S8x200_S8.lift (ix1 r) t = ix2 r t :=
      funext fun a => Fin.ext (by match a with | ⟨0, _⟩ => rfl | ⟨1, _⟩ => rfl)
    rw [hidx]
    show (Ideal.ofBits .f32 0x00000000#32
        - (v12 (ix2 r t) * Ideal.log (Scalar.select (Ideal.cmp .ogt (v14 (ix2 r t)) (Ideal.ofBits .f32 0x00000000#32))
              (k0_pay2 v1 v7 (ix2 r t)) (Ideal.ofBits .f32 0x3F000000#32))
          + (Ideal.ofBits .f32 0x3F800000#32 - v12 (ix2 r t))
            * Ideal.log1p (Ideal.ofBits .f32 0x00000000#32
                - Scalar.select (Ideal.cmp .ogt (v14 (ix2 r t)) (Ideal.ofBits .f32 0x00000000#32))
                    (k0_pay2 v1 v7 (ix2 r t)) (Ideal.ofBits .f32 0x3F000000#32)))) * v14 (ix2 r t) = _
    rw [select_ogt_zero]
    rfl
  · refine (maximumf_apply _ _ _).trans ?_
    refine congrArg₂ max ?_ rfl
    refine (Ideal.multiReduction_add_single (φ := .f32) _ 0x00000000#32 reduces_S8x200_S8 (.inl rfl) rfl (ix1 r)).trans ?_
    show ∑ t : Fin 200, _ = _
    refine Finset.sum_congr rfl fun t _ => ?_
    exact congrArg v14 (funext fun a => Fin.ext (by match a with | ⟨0, _⟩ => rfl | ⟨1, _⟩ => rfl))

/-- The loss column: a vector of 8 given a unit column axis reads its entry. -/
theorem k0_pay1_apply (v36 : FVec Ideal S8 .f32) (r : Fin 8) (z : Fin 1) : k0_pay1 v36 (ix2 r z) = v36 (ix1 r) := by
  unfold k0_pay1
  refine shapeCast_apply _ shapeCasts_S8_S8x1 (ix2 r z) (ix1 r) ?_
  rw [Shape.rowMajor_val_one, Shape.rowMajor_val_two]
  show r.val = r.val * 1 + z.val
  omega

/-- The probabilities block after the body: position `(r, t)` is the sum over the 2048 questions of the loaded
    probability where the question's number is the gather column's entry, zero elsewhere. -/
theorem out0_4_apply (x0 : Vec Ideal S8x200x2048 .f32) (x1 : Vec Ideal S8x200 .i32) (x2 x3 : Vec Ideal S8x200 .f32)
    (r : Fin 8) (t : Fin 200) :
    out0_4 x0 x1 x2 x3 (ix2 r t)
      = ∑ h : Fin 2048, if BitVec.ofNat 32 h.val = (x1 (ix2 r t) : BitVec 32) then x0 (ix3 r t h) else 0 := by
  rw [out0_4_eq]
  exact k0_pay2_apply x1 x0 r t

/-- The loss block after the body: row `r`'s masked cross-entropy terms (window 3's block the answers, window 2's the
    mask, the probabilities block just computed) summed over the 200 positions and divided by max(mask sum, 1). -/
theorem out0_5_apply (x0 : Vec Ideal S8x200x2048 .f32) (x1 : Vec Ideal S8x200 .i32) (x2 x3 : Vec Ideal S8x200 .f32)
    (r : Fin 8) (z : Fin 1) :
    out0_5 x0 x1 x2 x3 (ix2 r z)
      = Ideal.div (∑ t : Fin 200, bceMasked (x3 (ix2 r t)) (out0_4 x0 x1 x2 x3 (ix2 r t)) (x2 (ix2 r t)))
          (max (∑ t : Fin 200, x2 (ix2 r t)) (Ideal.ofBits .f32 0x3F800000#32)) := by
  rw [out0_4_eq x0 x1 x2 x3, out0_5_eq, k0_pay1_apply]
  exact k0_pay3_apply x1 x0 x3 x2 r

end Cert.KernelIdeal.KBlocks

end
-- ==== Proof.KFinal.lean ====
/-
  From blocks to arrays: grid point t writes back rows 8t .. 8t+7, and those 64 blocks tile each output array, so
  after the region the probabilities array is G4 and the loss array G5 of the arrays the region staged.
-/
import proofs.«401505_j76665166233883_3_alg».proof.Proof.KBlocks

noncomputable section

open scoped BigOperators

namespace Cert.KernelIdeal.KFinal

open Cert.KernelIdeal Cert.KernelIdeal.Gen Cert.KernelIdeal.KValue Cert.KernelIdeal.KBlocks Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The index maps: every window's block at grid point t is the t-th block of 8 rows -/

/-- Every window's block index at grid point t is (t, 0) (for the probabilities (t, 0, 0)): the input windows move
    with the output windows, and the row-block index stays below 64. -/
theorem idxFacts : ∀ t : Fin cfg0.N,
    win0_0.index t (0 : Fin 3) = win0_4.index t (0 : Fin 2)
    ∧ win0_0.index t (1 : Fin 3) = 0
    ∧ win0_0.index t (2 : Fin 3) = 0
    ∧ win0_1.index t (0 : Fin 2) = win0_4.index t (0 : Fin 2)
    ∧ win0_1.index t (1 : Fin 2) = 0
    ∧ win0_2.index t (0 : Fin 2) = win0_4.index t (0 : Fin 2)
    ∧ win0_2.index t (1 : Fin 2) = 0
    ∧ win0_3.index t (0 : Fin 2) = win0_4.index t (0 : Fin 2)
    ∧ win0_3.index t (1 : Fin 2) = 0
    ∧ win0_5.index t (0 : Fin 2) = win0_4.index t (0 : Fin 2)
    ∧ win0_5.index t (1 : Fin 2) = 0
    ∧ win0_4.index t (1 : Fin 2) = 0
    ∧ win0_4.index t (0 : Fin 2) ≤ 63 :=
  (by decide +kernel : ∀ t : Fin grid0.N, _)

/-- Every one of the 64 row blocks is some grid point's. -/
theorem idxOnto : ∀ q : Fin 64, ∃ t : Fin cfg0.N, win0_4.index t (0 : Fin 2) = q.val :=
  (by decide +kernel : ∀ q : Fin 64, ∃ t : Fin grid0.N, win0_4.index t (0 : Fin 2) = q.val)

/-! ## The input blocks read at an index: row r of block t is row 8t + r of the array -/

/-- The probabilities block. -/
theorem blk0_apply (c : Dev nD) (t : Fin cfg0.N) (r : Fin 8) (u : Fin 200) (h : Fin 2048) (b : Fin 512)
    (hb : b.val = win0_4.index t (0 : Fin 2) * 8 + r.val) :
    (iblk m c 0 t : Vec Ideal S8x200x2048 .f32) (ix3 r u h) = (V m c main_arg0 : FVec Ideal S512x200x2048 .f32) (ix3 b u h) := by
  obtain ⟨e0, e1, e2, -⟩ := idxFacts t
  show V m c main_arg0 (((cfg0.win 0).blk t).view.emb (ix3 r u h)) = _
  refine congrArg (V m c main_arg0) ?_
  funext a; apply Fin.ext
  match a with
  | ⟨0, _⟩ => show win0_0.index t (0 : Fin 3) * 8 + 1 * r.val = b.val; omega
  | ⟨1, _⟩ => show win0_0.index t (1 : Fin 3) * 200 + 1 * u.val = u.val; omega
  | ⟨2, _⟩ => show win0_0.index t (2 : Fin 3) * 2048 + 1 * h.val = h.val; omega

/-- The gather column's block. -/
theorem blk1_apply (c : Dev nD) (t : Fin cfg0.N) (r : Fin 8) (u : Fin 200) (b : Fin 512)
    (hb : b.val = win0_4.index t (0 : Fin 2) * 8 + r.val) :
    ((iblk m c 1 t : Vec Ideal S8x200 .i32) (ix2 r u) : BitVec 32) = (V m c main_v16 : IVec S512x200 32) (ix2 b u) := by
  obtain ⟨-, -, -, e0, e1, -⟩ := idxFacts t
  show V m c main_v16 (((cfg0.win 1).blk t).view.emb (ix2 r u)) = _
  refine congrArg (V m c main_v16) ?_
  funext a; apply Fin.ext
  match a with
  | ⟨0, _⟩ => show win0_1.index t (0 : Fin 2) * 8 + 1 * r.val = b.val; omega
  | ⟨1, _⟩ => show win0_1.index t (1 : Fin 2) * 200 + 1 * u.val = u.val; omega

/-- The mask's block. -/
theorem blk2_apply (c : Dev nD) (t : Fin cfg0.N) (r : Fin 8) (u : Fin 200) (b : Fin 512)
    (hb : b.val = win0_4.index t (0 : Fin 2) * 8 + r.val) :
    (iblk m c 2 t : Vec Ideal S8x200 .f32) (ix2 r u) = (V m c main_v17 : FVec Ideal S512x200 .f32) (ix2 b u) := by
  obtain ⟨-, -, -, -, -, e0, e1, -⟩ := idxFacts t
  show V m c main_v17 (((cfg0.win 2).blk t).view.emb (ix2 r u)) = _
  refine congrArg (V m c main_v17) ?_
  funext a; apply Fin.ext
  match a with
  | ⟨0, _⟩ => show win0_2.index t (0 : Fin 2) * 8 + 1 * r.val = b.val; omega
  | ⟨1, _⟩ => show win0_2.index t (1 : Fin 2) * 200 + 1 * u.val = u.val; omega

/-- The answers' block. -/
theorem blk3_apply (c : Dev nD) (t : Fin cfg0.N) (r : Fin 8) (u : Fin 200) (b : Fin 512)
    (hb : b.val = win0_4.index t (0 : Fin 2) * 8 + r.val) :
    (iblk m c 3 t : Vec Ideal S8x200 .f32) (ix2 r u) = (V m c main_v18 : FVec Ideal S512x200 .f32) (ix2 b u) := by
  obtain ⟨-, -, -, -, -, -, -, e0, e1, -⟩ := idxFacts t
  show V m c main_v18 (((cfg0.win 3).blk t).view.emb (ix2 r u)) = _
  refine congrArg (V m c main_v18) ?_
  funext a; apply Fin.ext
  match a with
  | ⟨0, _⟩ => show win0_3.index t (0 : Fin 2) * 8 + 1 * r.val = b.val; omega
  | ⟨1, _⟩ => show win0_3.index t (1 : Fin 2) * 200 + 1 * u.val = u.val; omega

/-! ## One block against the arrays: where the loaded blocks are rows of the arrays, the stored blocks are rows of G4, G5 -/

/-- Row r of the stored probabilities block is row b of G4 when row r of the two loaded blocks it reads is row b of
    their arrays. -/
theorem out4_row (pred : FVec Ideal S512x200x2048 .f32) (qf : IVec S512x200 32)
    (x0 : Vec Ideal S8x200x2048 .f32) (x1 : Vec Ideal S8x200 .i32) (x2 x3 : Vec Ideal S8x200 .f32)
    (b : Fin 512) (r : Fin 8) (u : Fin 200)
    (h0 : ∀ h : Fin 2048, x0 (ix3 r u h) = pred (ix3 b u h))
    (h1 : (x1 (ix2 r u) : BitVec 32) = qf (ix2 b u)) :
    out0_4 x0 x1 x2 x3 (ix2 r u) = G4 pred qf (ix2 b u) := by
  refine (out0_4_apply x0 x1 x2 x3 r u).trans ?_
  show _ = ∑ h : Fin 2048, if BitVec.ofNat 32 h.val = qf (ix2 b u) then pred (ix3 b u h) else 0
  refine Finset.sum_congr rfl fun h _ => ?_
  rw [h1, h0 h]

/-- Row r of the stored loss block is row b of G5 when row r of each loaded block is row b of its array. -/
theorem out5_row (pred : FVec Ideal S512x200x2048 .f32) (qf : IVec S512x200 32) (vff aff : FVec Ideal S512x200 .f32)
    (x0 : Vec Ideal S8x200x2048 .f32) (x1 : Vec Ideal S8x200 .i32) (x2 x3 : Vec Ideal S8x200 .f32)
    (b : Fin 512) (r : Fin 8) (z z' : Fin 1)
    (h0 : ∀ (u : Fin 200) (h : Fin 2048), x0 (ix3 r u h) = pred (ix3 b u h))
    (h1 : ∀ u : Fin 200, (x1 (ix2 r u) : BitVec 32) = qf (ix2 b u))
    (h2 : ∀ u : Fin 200, x2 (ix2 r u) = vff (ix2 b u))
    (h3 : ∀ u : Fin 200, x3 (ix2 r u) = aff (ix2 b u)) :
    out0_5 x0 x1 x2 x3 (ix2 r z) = G5 pred qf vff aff (ix2 b z') := by
  refine (out0_5_apply x0 x1 x2 x3 r z).trans ?_
  show _ = Ideal.div (∑ u : Fin 200, bceMasked (aff (ix2 b u)) (G4 pred qf (ix2 b u)) (vff (ix2 b u)))
      (max (∑ u : Fin 200, vff (ix2 b u)) (Ideal.ofBits .f32 0x3F800000#32))
  have e : ∀ u : Fin 200, bceMasked (x3 (ix2 r u)) (out0_4 x0 x1 x2 x3 (ix2 r u)) (x2 (ix2 r u))
      = bceMasked (aff (ix2 b u)) (G4 pred qf (ix2 b u)) (vff (ix2 b u)) := fun u => by
    rw [h3 u, h2 u, out4_row pred qf x0 x1 x2 x3 b r u (h0 u) (h1 u)]
  rw [Finset.sum_congr rfl fun u _ => e u, Finset.sum_congr rfl fun u _ => h2 u]

/-! ## What a grid point writes back -/

/-- Grid point t writes back block t of G4 of the staged arrays. -/
theorem flushed4_eq (c : Dev nD) (t : Fin cfg0.N) :
    (dats m 0 c).flushed 4 t
      = ((cfg0.win 4).blk t).view.read (Elt Ideal) (G4 (V m c main_arg0) (V m c main_v16)) := by
  show (cfg0.win 4).cut (grid0.coords t) ((dats m 0 c).after 4 t) = _
  rw [after0_4]
  obtain ⟨-, -, -, -, -, -, -, -, -, -, -, e1, e0⟩ := idxFacts t
  funext j
  obtain ⟨r, u, rfl⟩ : ∃ (r : Fin 8) (u : Fin 200), j = ix2 r u := ⟨j 0, j 1, eq_ix2 j⟩
  have hb : win0_4.index t (0 : Fin 2) * 8 + r.val < 512 := by have := r.isLt; omega
  show out0_4 (iblk m c 0 t) (iblk m c 1 t) (iblk m c 2 t) (iblk m c 3 t) (ix2 r u)
    = G4 (V m c main_arg0) (V m c main_v16) (((cfg0.win 4).blk t).view.emb (ix2 r u))
  have hemb : ((cfg0.win 4).blk t).view.emb (ix2 r u) = ix2 (⟨win0_4.index t (0 : Fin 2) * 8 + r.val, hb⟩ : Fin 512) u := by
    funext a; apply Fin.ext
    match a with
    | ⟨0, _⟩ => show win0_4.index t (0 : Fin 2) * 8 + 1 * r.val = win0_4.index t (0 : Fin 2) * 8 + r.val; omega
    | ⟨1, _⟩ => show win0_4.index t (1 : Fin 2) * 200 + 1 * u.val = u.val; omega
  rw [hemb]
  exact out4_row (V m c main_arg0) (V m c main_v16) (iblk m c 0 t) (iblk m c 1 t) (iblk m c 2 t) (iblk m c 3 t) _ r u
    (fun h => blk0_apply m c t r u h _ rfl) (blk1_apply m c t r u _ rfl)

/-- Grid point t writes back block t of G5 of the staged arrays. -/
theorem flushed5_eq (c : Dev nD) (t : Fin cfg0.N) :
    (dats m 0 c).flushed 5 t
      = ((cfg0.win 5).blk t).view.read (Elt Ideal)
          (G5 (V m c main_arg0) (V m c main_v16) (V m c main_v17) (V m c main_v18)) := by
  show (cfg0.win 5).cut (grid0.coords t) ((dats m 0 c).after 5 t) = _
  rw [after0_5]
  obtain ⟨-, -, -, -, -, -, -, -, -, e0, e1, -, e2⟩ := idxFacts t
  funext j
  obtain ⟨r, z, rfl⟩ : ∃ (r : Fin 8) (z : Fin 1), j = ix2 r z := ⟨j 0, j 1, eq_ix2 j⟩
  have hb : win0_4.index t (0 : Fin 2) * 8 + r.val < 512 := by have := r.isLt; omega
  show out0_5 (iblk m c 0 t) (iblk m c 1 t) (iblk m c 2 t) (iblk m c 3 t) (ix2 r z)
    = G5 (V m c main_arg0) (V m c main_v16) (V m c main_v17) (V m c main_v18) (((cfg0.win 5).blk t).view.emb (ix2 r z))
  have hemb : ((cfg0.win 5).blk t).view.emb (ix2 r z) = ix2 (⟨win0_4.index t (0 : Fin 2) * 8 + r.val, hb⟩ : Fin 512) z := by
    funext a; apply Fin.ext
    match a with
    | ⟨0, _⟩ => show win0_5.index t (0 : Fin 2) * 8 + 1 * r.val = win0_4.index t (0 : Fin 2) * 8 + r.val; omega
    | ⟨1, _⟩ => show win0_5.index t (1 : Fin 2) * 1 + 1 * z.val = z.val; omega
  rw [hemb]
  exact out5_row (V m c main_arg0) (V m c main_v16) (V m c main_v17) (V m c main_v18)
    (iblk m c 0 t) (iblk m c 1 t) (iblk m c 2 t) (iblk m c 3 t) _ r z z
    (fun u h => blk0_apply m c t r u h _ rfl) (fun u => blk1_apply m c t r u _ rfl)
    (fun u => blk2_apply m c t r u _ rfl) (fun u => blk3_apply m c t r u _ rfl)

/-! ## The 64 blocks tile each output array -/

/-- An index of the probabilities array is in grid point t's block iff each coordinate is in the block's range. -/
theorem mem_blk4 (t : Fin cfg0.N) (i : S512x200.Idx) :
    i ∈ ((cfg0.win 4).blk t).view.set
      ↔ ∀ a : Fin 2, win0_4.index t a * S8x200.size a ≤ (i a).val
          ∧ (i a).val < win0_4.index t a * S8x200.size a + S8x200.size a := by
  show i ∈ ((View.whole main_v19_0).slice (win0_4.rect t)).set ↔ _
  rw [View.set_slice_whole, Rect.mem_set_unit]
  exact Iff.rfl

/-- An index of the loss array is in grid point t's block iff each coordinate is in the block's range. -/
theorem mem_blk5 (t : Fin cfg0.N) (i : S512x1.Idx) :
    i ∈ ((cfg0.win 5).blk t).view.set
      ↔ ∀ a : Fin 2, win0_5.index t a * S8x1.size a ≤ (i a).val
          ∧ (i a).val < win0_5.index t a * S8x1.size a + S8x1.size a := by
  show i ∈ ((View.whole main_v19_1).slice (win0_5.rect t)).set ↔ _
  rw [View.set_slice_whole, Rect.mem_set_unit]
  exact Iff.rfl

/-- Row b of the probabilities array is in the block of the grid point whose row block is b / 8. -/
theorem cover4 (i : S512x200.Idx) :
    ∃ t : Fin cfg0.N, (cfg0.win 4).flush t = true ∧ i ∈ ((cfg0.win 4).blk t).view.set := by
  have hi0 : (i 0).val < 512 := (i 0).isLt
  have hi1 : (i 1).val < 200 := (i 1).isLt
  obtain ⟨t, ht⟩ := idxOnto ⟨(i 0).val / 8, by omega⟩
  have q0 : win0_4.index t (0 : Fin 2) = (i 0).val / 8 := ht
  obtain ⟨-, -, -, -, -, -, -, -, -, -, -, q1, -⟩ := idxFacts t
  refine ⟨t, flush0_4 t, ?_⟩
  rw [mem_blk4]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 200 ≤ (i 1).val ∧ (i 1).val < win0_4.index t (1 : Fin 2) * 200 + 200
    omega

/-- Row b of the loss array is in the block of the grid point whose row block is b / 8. -/
theorem cover5 (i : S512x1.Idx) :
    ∃ t : Fin cfg0.N, (cfg0.win 5).flush t = true ∧ i ∈ ((cfg0.win 5).blk t).view.set := by
  have hi0 : (i 0).val < 512 := (i 0).isLt
  have hi1 : (i 1).val < 1 := (i 1).isLt
  obtain ⟨t, ht⟩ := idxOnto ⟨(i 0).val / 8, by omega⟩
  have q : win0_4.index t (0 : Fin 2) = (i 0).val / 8 := ht
  obtain ⟨-, -, -, -, -, -, -, -, -, q0, q1, -⟩ := idxFacts t
  refine ⟨t, flush0_5 t, ?_⟩
  rw [mem_blk5]
  intro a
  match a with
  | ⟨0, _⟩ =>
    show win0_5.index t (0 : Fin 2) * 8 ≤ (i 0).val ∧ (i 0).val < win0_5.index t (0 : Fin 2) * 8 + 8
    omega
  | ⟨1, _⟩ =>
    show win0_5.index t (1 : Fin 2) * 1 ≤ (i 1).val ∧ (i 1).val < win0_5.index t (1 : Fin 2) * 1 + 1
    omega

/-! ## The two arrays after the region -/

/-- The probabilities array after the region. -/
theorem final4 (c : Dev nD) : (dats m 0 c).arrAt 4 cfg0.N = G4 (V m c main_arg0) (V m c main_v16) :=
  (dats m 0 c).arrAt_eq_of_cover 4 (G4 (V m c main_arg0) (V m c main_v16)) (fun t _ => flushed4_eq m c t) cover4

/-- The loss array after the region. -/
theorem final5 (c : Dev nD) :
    (dats m 0 c).arrAt 5 cfg0.N = G5 (V m c main_arg0) (V m c main_v16) (V m c main_v17) (V m c main_v18) :=
  (dats m 0 c).arrAt_eq_of_cover 5 (G5 (V m c main_arg0) (V m c main_v16) (V m c main_v17) (V m c main_v18))
    (fun t _ => flushed5_eq m c t) cover5

end Cert.KernelIdeal.KFinal

end
-- ==== Proof.KRun.lean ====
/-
  The kernel program's run read back: the generated frame run leaves the two output arrays at G4 and G5 of the staged
  arrays, the staged arrays are the named host terms, and the six lines after the region turn them into the three
  results kLoss, kP, kA of the argument arrays.
-/
import proofs.«401505_j76665166233883_3_alg».proof.Proof.KHost
import proofs.«401505_j76665166233883_3_alg».proof.Proof.KFinal

noncomputable section

open scoped BigOperators

namespace Cert.KernelIdeal.KRun

open Cert.KernelIdeal Cert.KernelIdeal.Gen Cert.KernelIdeal.KValue Idealize.ShloMosaic Idealize.ShloMosaic.TcCoe Idealize.SL.Sem

/-- The loss array depends only on the four staged arrays. -/
theorem G5_congr {p p' : FVec Ideal S512x200x2048 .f32} {q q' : IVec S512x200 32} {v v' a a' : FVec Ideal S512x200 .f32}
    (hp : p = p') (hq : q = q') (hv : v = v') (ha : a = a') : G5 p q v a = G5 p' q' v' a' := by
  rw [hp, hq, hv, ha]

/-- The probabilities array depends only on the two staged arrays. -/
theorem G4_congr {p p' : FVec Ideal S512x200x2048 .f32} {q q' : IVec S512x200 32}
    (hp : p = p') (hq : q = q') : G4 p q = G4 p' q' := by
  rw [hp, hq]

/-- After the region the loss array is G5 of the named host terms of the argument arrays. -/
theorem exit5 (m : (ℓ : Loc nD τ sig) → Buf (Elt Ideal) ℓ) (c : Dev nD) :
    Pipeline.withArrays (cfgs 0).spec c (V0 m c) (fun w => (dats m 0 c).arrAt w (cfgs 0).N) (Proc.devRef .tc main_v19_1)
      = G5 (m ((c.tc : Thread nD τ).loc main_arg0)) (qidxFull (qv (m ((c.tc : Thread nD τ).loc main_arg1))))
          (padCol (vfv (qv (m ((c.tc : Thread nD τ).loc main_arg1))))) (padCol (av (m ((c.tc : Thread nD τ).loc main_arg1)))) :=
  (Pipeline.withArrays_arr spec0 launch0.win.arr_inj c _ _ 5).trans
    ((KFinal.final5 m c).trans
      (G5_congr (V_main_arg0 m c) (KHost.V_main_v16 m c) (KHost.V_main_v17 m c) (KHost.V_main_v18 m c)))

/-- After the region the probabilities array is G4 of the named host terms of the argument arrays. -/
theorem exit4 (m : (ℓ : Loc nD τ sig) → Buf (Elt Ideal) ℓ) (c : Dev nD) :
    Pipeline.withArrays (cfgs 0).spec c (V0 m c) (fun w => (dats m 0 c).arrAt w (cfgs 0).N) (Proc.devRef .tc main_v19_0)
      = G4 (m ((c.tc : Thread nD τ).loc main_arg0)) (qidxFull (qv (m ((c.tc : Thread nD τ).loc main_arg1)))) :=
  (Pipeline.withArrays_arr spec0 launch0.win.arr_inj c _ _ 4).trans
    ((KFinal.final4 m c).trans (G4_congr (V_main_arg0 m c) (KHost.V_main_v16 m c)))

/-- The region does not touch the unpadded answers. -/
theorem exitA (m : (ℓ : Loc nD τ sig) → Buf (Elt Ideal) ℓ) (c : Dev nD) :
    Pipeline.withArrays (cfgs 0).spec c (V0 m c) (fun w => (dats m 0 c).arrAt w (cfgs 0).N) (Proc.devRef .tc main_v4)
      = av (F := Ideal) (m ((c.tc : Thread nD τ).loc main_arg1)) :=
  (Pipeline.withArrays_of_ne spec0 c (V0 m c) _ main_v4 (by decide : ∀ w, Pipeline.arrRef spec0 w ≠ main_v4)).trans
    (KHost.V0_main_v4 m c)

/-- The first result: the loss array flattened and summed over the students. -/
theorem tail_v21 (m : (ℓ : Loc nD τ sig) → Buf (Elt Ideal) ℓ) (c : Dev nD) :
    Pipeline.afterTail₀ cfgs (dats m) 0 (V0 m) [hostOps1] c main_v21
      = kLoss (m ((c.tc : Thread nD τ).loc main_arg0)) (m ((c.tc : Thread nD τ).loc main_arg1)) := by
  unfold Pipeline.afterTail₀
  show StableHlo.after hostOps1 _ (Proc.devRef .tc main_v21) = _
  after_results
  rw [exit5 m c]
  rfl

/-- The second result: the probabilities array without its padded column, flattened. -/
theorem tail_v23 (m : (ℓ : Loc nD τ sig) → Buf (Elt Ideal) ℓ) (c : Dev nD) :
    Pipeline.afterTail₀ cfgs (dats m) 0 (V0 m) [hostOps1] c main_v23
      = kP (m ((c.tc : Thread nD τ).loc main_arg0)) (m ((c.tc : Thread nD τ).loc main_arg1)) := by
  unfold Pipeline.afterTail₀
  show StableHlo.after hostOps1 _ (Proc.devRef .tc main_v23) = _
  after_results
  rw [exit4 m c]
  rfl

/-- The third result: the answers flattened. -/
theorem tail_v24 (m : (ℓ : Loc nD τ sig) → Buf (Elt Ideal) ℓ) (c : Dev nD) :
    Pipeline.afterTail₀ cfgs (dats m) 0 (V0 m) [hostOps1] c main_v24
      = kA (m ((c.tc : Thread nD τ).loc main_arg1)) := by
  unfold Pipeline.afterTail₀
  show StableHlo.after hostOps1 _ (Proc.devRef .tc main_v24) = _
  after_results
  rw [exitA m c]
  rfl

/-- Every weakly fair execution of the kernel program terminates with the three results at `kLoss`, `kP`, `kA` of the
    argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = kLoss (m ((c.tc : Thread nD τ).loc main_arg0)) (m ((c.tc : Thread nD τ).loc main_arg1))
      ∧ r.2.mem ((c.tc : Thread nD τ).loc main_v23) = kP (m ((c.tc : Thread nD τ).loc main_arg0)) (m ((c.tc : Thread nD τ).loc main_arg1))
      ∧ r.2.mem ((c.tc : Thread nD τ).loc main_v24) = kA (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 (Pipeline.mem_restRefs_of main_v21 (by decide) (by decide))).trans (tail_v21 m c),
      ((h c).2 main_v23 (Pipeline.mem_restRefs_of main_v23 (by decide) (by decide))).trans (tail_v23 m c),
      ((h c).2 main_v24 (Pipeline.mem_restRefs_of main_v24 (by decide) (by decide))).trans (tail_v24 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KRun

end
-- ==== Proof.PreRead.lean ====
/-
  Reading the precondition: its second and third conjuncts say that every question id q = me[:, 1:, 0] lies in
  [1, 2048] as a signed 32-bit integer.
-/
import proofs.«401505_j76665166233883_3_alg».proof.Proof.Gen.Pre_finite_inputs
import proofs.«401505_j76665166233883_3_alg».proof.Proof.KTerms
import Idealize.ShloMosaic.Lib.ReduceAll
import Idealize.ShloMosaic.Lib.StableHlo.Predicate

noncomputable section

open scoped BigOperators

namespace Cert.KernelIdeal.PreRead

open Cert.KernelIdeal Cert.KernelIdeal.KValue Idealize.ShloMosaic Idealize.ShloMosaic.ValueIdx

/-- Under the precondition every question id is in `[1, 2048]`. -/
theorem q_range (pred : FVec Ideal S512x200x2048 .f32) (me : IVec S512x200x3 32)
    (h : Cert.Pre_finite_inputs.fn (F := Ideal) pred me = fun _ => 1#1) (i : S512x199.Idx) :
    0 < (qv me i).toInt ∧ (qv me i).toInt ≤ 2048 := by
  -- the scalar result has a single index
  haveI : Subsingleton Cert.Pre_finite_inputs.S_.Idx := ⟨fun a b => funext fun d => d.elim0⟩
  -- the precondition at its one index: a conjunction of three "all" reductions
  have h0 := congrFun h ValueIdx.ix0
  dsimp only [Cert.Pre_finite_inputs.fn] at h0
  obtain ⟨h1, h14⟩ := IntOp.andi_eq_one.1 h0
  obtain ⟨-, h8⟩ := IntOp.andi_eq_one.1 h1
  -- each "all" holds at the index i
  have e8 := Host.reduce_andi_all _ _ _ _ _ h8 i
  have e14 := Host.reduce_andi_all _ _ _ _ _ h14 i
  -- the two signed comparisons, with the broadcast constants read at i
  have z0 : (0#32 : BitVec 32).toInt = 0 := by decide
  have z1 : (2048#32 : BitVec 32).toInt = 2048 := by decide
  have p8 : (0#32 : BitVec 32).toInt < (qv me i).toInt := IntOp.cmpi_sgt.1 e8
  have p14 : (qv me i).toInt ≤ (2048#32 : BitVec 32).toInt := IntOp.cmpi_sle.1 e14
  rw [z0] at p8
  rw [z1] at p14
  exact ⟨p8, p14⟩

end Cert.KernelIdeal.PreRead

end
-- ==== Proof.PadRead.lean ====
/-
  The padded arrays read at an index: the first 199 columns are the unpadded array's, column 199 is the padding
  value; and the gather column, for a question id in [1, 2048], is q - 1 unclamped.
-/
import proofs.«401505_j76665166233883_3_alg».proof.Proof.KTerms
import Idealize.ShloMosaic.Lib.ValueIdx
import Idealize.ShloMosaic.Lib.Pipeline.Value
import Idealize.ShloMosaic.Lib.KernelVsHost

noncomputable section

open scoped BigOperators

namespace Cert.KernelIdeal.PadRead

open Cert.KernelIdeal Cert.KernelIdeal.KValue Idealize.ShloMosaic Idealize.ShloMosaic.ValueIdx

/-- For a 32-bit word whose signed value lies in [1, 2048], the unsigned value lies there too, and the word less one
    has unsigned value one less. -/
theorem toNat_pred_of_range (w : BitVec 32) (hq : 0 < w.toInt ∧ w.toInt ≤ 2048) :
    0 < w.toNat ∧ w.toNat ≤ 2048 ∧ (w - 1#32).toNat = w.toNat - 1 := by
  have hw : w.toNat < 2 ^ 32 := w.isLt
  have hn : 0 < w.toNat ∧ w.toNat ≤ 2048 := by
    rw [BitVec.toInt_eq_toNat_cond] at hq
    split at hq <;> omega
  refine ⟨hn.1, hn.2, ?_⟩
  rw [BitVec.toNat_sub]
  show (2 ^ 32 - 1 + w.toNat) % 2 ^ 32 = w.toNat - 1
  omega

/-- Clamping w - 1 into [0, 2047] (signed maximum with 0, then signed minimum with 2047) changes nothing when the
    signed value of w lies in [1, 2048]. -/
theorem clamp_pred (w : BitVec 32) (hq : 0 < w.toInt ∧ w.toInt ≤ 2048) :
    IntOp.minsi 2047#32 (IntOp.maxsi 0#32 (IntOp.subi w 1#32)) = w - 1#32 := by
  obtain ⟨h0, h1, h2⟩ := toNat_pred_of_range w hq
  have h3 : (w - 1#32).toInt = (w.toNat : Int) - 1 := by
    rw [BitVec.toInt_eq_toNat_cond, h2]
    split <;> omega
  have ha : (w - 1#32).slt 0#32 = false := by
    unfold BitVec.slt
    rw [h3]
    simp only [BitVec.toInt_zero, decide_eq_false_iff_not]
    omega
  have hb : (2047#32).slt (w - 1#32) = false := by
    unfold BitVec.slt
    rw [h3]
    have e : (2047#32 : BitVec 32).toInt = 2047 := by decide
    rw [e]
    simp only [decide_eq_false_iff_not]
    omega
  unfold IntOp.minsi IntOp.maxsi IntOp.subi
  rw [ha]
  simp only [Bool.false_eq_true, if_false]
  rw [hb]
  simp only [Bool.false_eq_true, if_false]

/-- A padded float array's first 199 columns are the array's. -/
theorem padCol_lt (x : FVec Ideal S512x199 .f32) (b : Fin 512) (t : Fin 199) :
    padCol x (ix2 b (⟨t.val, by omega⟩ : Fin 200)) = x (ix2 b t) := by
  unfold padCol
  exact pad_apply_of_inside _ _ _ x _ _ _ _ (ix2 b t) (by
    intro a
    match a with
    | ⟨0, _⟩ => show b.val = 0 + b.val * (0 + 1); omega
    | ⟨1, _⟩ => show t.val = 0 + t.val * (0 + 1); omega)

/-- A padded float array's last column is zero. -/
theorem padCol_last (x : FVec Ideal S512x199 .f32) (b : Fin 512) :
    padCol x (ix2 b (⟨199, by omega⟩ : Fin 200)) = 0 := by
  unfold padCol
  refine (pad_apply_of_not_inside _ _ _ x _ _ _ _ (1 : Fin 2) (by
    intro hin
    have e : (199 - 0) / (0 + 1) < 199 := hin.2.2
    omega)).trans ?_
  exact Ideal.ofBits_zero_f32

/-- The padded gather column's first 199 columns, for a question id in `[1, 2048]`: the id less one, as a 32-bit word. -/
theorem qidxFull_lt (q : IVec S512x199 32) (b : Fin 512) (t : Fin 199)
    (hq : 0 < (q (ix2 b t)).toInt ∧ (q (ix2 b t)).toInt ≤ 2048) :
    qidxFull q (ix2 b (⟨t.val, by omega⟩ : Fin 200)) = q (ix2 b t) - 1#32 := by
  unfold qidxFull
  refine (pad_apply_of_inside _ _ _ (qidx q) _ _ _ _ (ix2 b t) (by
    intro a
    match a with
    | ⟨0, _⟩ => show b.val = 0 + b.val * (0 + 1); omega
    | ⟨1, _⟩ => show t.val = 0 + t.val * (0 + 1); omega)).trans ?_
  exact clamp_pred (q (ix2 b t)) hq

/-- The padded gather column's last column is the index zero. -/
theorem qidxFull_last (q : IVec S512x199 32) (b : Fin 512) :
    qidxFull q (ix2 b (⟨199, by omega⟩ : Fin 200)) = 0#32 := by
  unfold qidxFull
  exact pad_apply_of_not_inside _ _ _ (qidx q) _ _ _ _ (1 : Fin 2) (by
    intro hin
    have e : (199 - 0) / (0 + 1) < 199 := hin.2.2
    omega)

end Cert.KernelIdeal.PadRead

end
-- ==== Proof.BridgeP.lean ====
/-
  The gathered probabilities agree: for a question id q in [1, 2048] the kernel's one-hot sum over the 2048 questions
  against the column q - 1 is pred[b, t, q - 1], and the reference's take_along_axis at the index q - 1 (not negative, so
  not wrapped; in bounds, so not filled) gathers the same element.
-/
import proofs.«401505_j76665166233883_3_alg».proof.Proof.PadRead
import proofs.«401505_j76665166233883_3_alg».proof.Proof.RefRun
import Idealize.ShloMosaic.Lib.ValueIdx
import Idealize.ShloMosaic.Lib.Pipeline.Value
import Idealize.ShloMosaic.Lib.Affine
import Idealize.ShloMosaic.PureOps.Reduce

noncomputable section

open scoped BigOperators

namespace Cert.Bridge

open Cert.KernelIdeal Cert.KernelIdeal.KValue Idealize.ShloMosaic Idealize.ShloMosaic.ValueIdx

local notation "gd" => Cert.ReferenceIdeal.gather_S512x199x2048_S512x199x1x1_S512x199x1_n_2_01_01_2_3_111

/-! ## The reference's take_along_axis read at an index -/

/-- A number below 2048 as a 32-bit word: its signed value is the number. -/
theorem toInt_ofNat_lt (k : Fin 2048) : (BitVec.ofNat 32 k.val).toInt = (k.val : Int) := by
  have hk : k.val < 2048 := k.isLt
  rw [BitVec.toInt_eq_toNat_cond, BitVec.toNat_ofNat, Nat.mod_eq_of_lt (by omega)]
  split <;> omega

/-- The wrapped index at (b, t): an index that is not negative is kept. -/
theorem wrapIdx_apply (idx : IVec (⟨3, ![512, 199, 1]⟩ : Shape) 32) (b : Fin 512) (t : Fin 199)
    (h : 0 ≤ (idx (ix3 b t (0 : Fin 1))).toInt) :
    Cert.ReferenceIdeal.RefValue.wrapIdx idx (ix4 b t (0 : Fin 1) (0 : Fin 1)) = idx (ix3 b t (0 : Fin 1)) := by
  unfold Cert.ReferenceIdeal.RefValue.wrapIdx
  refine (shapeCast_apply _ _ (ix4 b t (0 : Fin 1) (0 : Fin 1)) (ix3 b t (0 : Fin 1)) (by
    rw [Shape.rowMajor_val_three, Shape.rowMajor_val_four]
    show (b.val * 199 + t.val) * 1 + 0 = ((b.val * 199 + t.val) * 1 + 0) * 1 + 0
    omega)).trans ?_
  show Scalar.select (IntOp.cmpi .slt (idx (ix3 b t (0 : Fin 1))) 0#32) _ (idx (ix3 b t (0 : Fin 1))) = _
  have e : IntOp.cmpi .slt (idx (ix3 b t (0 : Fin 1))) 0#32 = 0#1 := eq_zero_of_ne_one (fun e => by
    have e2 := IntOp.cmpi_slt.1 e
    rw [BitVec.toInt_zero] at e2
    omega)
  rw [e]
  exact select_zero _ _

/-- A fold over an index type of one element is the operation applied once. -/
theorem fold_fin_one {β : Type} (f : β → β → β) [Std.Commutative f] [Std.Associative f] (init : β) (n : Nat) (hn : n = 1)
    (g : Fin n → β) : Finset.fold f init g Finset.univ = f (g ⟨0, by omega⟩) init := by
  subst hn
  rw [Finset.univ_unique, Finset.fold_singleton]
  rfl

/-- The [512, 199, 1, 1] index over (b, t, 0) on the reduced unit axis 3 is (b, t, 0, 0). -/
theorem liftIdx (b : Fin 512) (t : Fin 199)
    (hR : (⟨4, ![512, 199, 1, 1]⟩ : Shape).Reduces [(3 : Fin 4)] (⟨3, ![512, 199, 1]⟩ : Shape))
    (k : Fin ((⟨4, ![512, 199, 1, 1]⟩ : Shape).size (3 : Fin 4))) :
    hR.lift (ix3 b t (0 : Fin 1)) k = ix4 b t (0 : Fin 1) (0 : Fin 1) := by
  funext c
  refine Fin.ext ?_
  have hk1 : k.val < 1 := k.isLt
  have hk : k.val = 0 := by omega
  match c with
  | ⟨0, _⟩ => rfl
  | ⟨1, _⟩ => rfl
  | ⟨2, _⟩ => rfl
  | ⟨3, _⟩ => exact hk

/-- Whether the index at (b, t) lies in [0, 2047]: it does. -/
theorem inBounds_apply (i5 : IVec (⟨4, ![512, 199, 1, 1]⟩ : Shape) 32) (b : Fin 512) (t : Fin 199)
    (h : 0 ≤ (i5 (ix4 b t (0 : Fin 1) (0 : Fin 1))).toInt ∧ (i5 (ix4 b t (0 : Fin 1) (0 : Fin 1))).toInt ≤ 2047) :
    Cert.ReferenceIdeal.RefValue.inBounds i5 (ix3 b t (0 : Fin 1)) = 1#1 := by
  have hR : (⟨4, ![512, 199, 1, 1]⟩ : Shape).Reduces [(3 : Fin 4)] (⟨3, ![512, 199, 1]⟩ : Shape) := by decide
  unfold Cert.ReferenceIdeal.RefValue.inBounds
  refine (Host.reduce_eq_fold_single IntOp.andi _ _ _ hR _ (ix3 b t (0 : Fin 1))).trans ?_
  refine (fold_fin_one IntOp.andi _ ((⟨4, ![512, 199, 1, 1]⟩ : Shape).size (3 : Fin 4)) rfl _).trans ?_
  rw [Function.comp_apply, liftIdx]
  show IntOp.andi (IntOp.andi (IntOp.cmpi .sge (i5 (ix4 b t (0 : Fin 1) (0 : Fin 1))) 0#32)
    (IntOp.cmpi .sle (i5 (ix4 b t (0 : Fin 1) (0 : Fin 1))) 2047#32)) 1#1 = 1#1
  have e : (2047#32 : BitVec 32).toInt = 2047 := by decide
  exact IntOp.andi_eq_one.2 ⟨IntOp.andi_eq_one.2 ⟨IntOp.cmpi_sge.2 (by rw [BitVec.toInt_zero]; exact h.1),
    IntOp.cmpi_sle.2 (by rw [e]; exact h.2)⟩, rfl⟩

/-- The gather read at (b, t): the operand at (b, t, the start index read signed and clamped into [0, 2047]). -/
theorem gather_apply {α : Type} (x : (⟨3, ![512, 199, 2048]⟩ : Shape).Idx → α) (i5 : IVec (⟨4, ![512, 199, 1, 1]⟩ : Shape) 32)
    (b : Fin 512) (t : Fin 199) :
    Host.gather gd x i5 (ix3 b t (0 : Fin 1))
      = x (ix3 b t (⟨min (i5 (ix4 b t (0 : Fin 1) (0 : Fin 1))).toInt.toNat 2047, by omega⟩ : Fin 2048)) := by
  unfold Host.gather
  congr 1
  funext a
  refine Fin.ext ?_
  match a with
  | ⟨0, _⟩ =>
    show GatherDims.start gd (ix3 b t (0 : Fin 1)) i5 (0 : Fin 3) + GatherDims.batchCoord gd (ix3 b t (0 : Fin 1)) (0 : Fin 3)
      + GatherDims.offCoord gd (ix3 b t (0 : Fin 1)) (0 : Fin 3) = b.val
    rw [GatherDims.start_batching gd _ i5 (0 : Fin 3) (by decide), GatherDims.offCoord_eq_zero gd _ (0 : Fin 3) (by decide),
      Nat.zero_add, Nat.add_zero]
    rfl
  | ⟨1, _⟩ =>
    show GatherDims.start gd (ix3 b t (0 : Fin 1)) i5 (1 : Fin 3) + GatherDims.batchCoord gd (ix3 b t (0 : Fin 1)) (1 : Fin 3)
      + GatherDims.offCoord gd (ix3 b t (0 : Fin 1)) (1 : Fin 3) = t.val
    rw [GatherDims.start_batching gd _ i5 (1 : Fin 3) (by decide), GatherDims.offCoord_eq_zero gd _ (1 : Fin 3) (by decide),
      Nat.zero_add, Nat.add_zero]
    rfl
  | ⟨2, _⟩ =>
    show GatherDims.start gd (ix3 b t (0 : Fin 1)) i5 (2 : Fin 3) + GatherDims.batchCoord gd (ix3 b t (0 : Fin 1)) (2 : Fin 3)
      + GatherDims.offCoord gd (ix3 b t (0 : Fin 1)) (2 : Fin 3) = min (i5 (ix4 b t (0 : Fin 1) (0 : Fin 1))).toInt.toNat 2047
    rw [GatherDims.batchCoord_eq_zero gd _ (2 : Fin 3) (by decide), GatherDims.offCoord_eq_zero gd _ (2 : Fin 3) (by decide),
      Nat.add_zero]
    unfold GatherDims.start
    rw [dif_pos (show (2 : Fin 3) ∈ GatherDims.startIndexMap gd from by decide)]
    have hsi : GatherDims.siIdx gd (ix3 b t (0 : Fin 1)) ⟨List.idxOf (2 : Fin 3) (GatherDims.startIndexMap gd),
        List.idxOf_lt_length_iff.2 (show (2 : Fin 3) ∈ GatherDims.startIndexMap gd from by decide)⟩
        = ix4 b t (0 : Fin 1) (0 : Fin 1) := by
      funext c
      refine Fin.ext ?_
      match c with
      | ⟨0, _⟩ => rfl
      | ⟨1, _⟩ => rfl
      | ⟨2, _⟩ => rfl
      | ⟨3, _⟩ => rfl
    rw [hsi]
    rfl

/-- take_along_axis read at (b, t), for an index word that is a number k below 2048: the operand at (b, t, k). -/
theorem takeAlong_apply (x : FVec Ideal (⟨3, ![512, 199, 2048]⟩ : Shape) .f32) (idx : IVec (⟨3, ![512, 199, 1]⟩ : Shape) 32)
    (b : Fin 512) (t : Fin 199) (k : Fin 2048) (hk : idx (ix3 b t (0 : Fin 1)) = BitVec.ofNat 32 k.val) :
    Cert.ReferenceIdeal.RefValue.takeAlong (F := Ideal) x idx (ix3 b t (0 : Fin 1)) = x (ix3 b t k) := by
  have hk' : k.val < 2048 := k.isLt
  have hi : (idx (ix3 b t (0 : Fin 1))).toInt = (k.val : Int) := by rw [hk]; exact toInt_ofNat_lt k
  have hw : Cert.ReferenceIdeal.RefValue.wrapIdx idx (ix4 b t (0 : Fin 1) (0 : Fin 1)) = idx (ix3 b t (0 : Fin 1)) :=
    wrapIdx_apply idx b t (by omega)
  unfold Cert.ReferenceIdeal.RefValue.takeAlong
  refine (select_apply _ _ _ _).trans ?_
  rw [inBounds_apply _ b t (by rw [hw]; omega), select_one]
  refine (gather_apply x _ b t).trans ?_
  refine congrArg x (congrArg (ix3 b t) (Fin.ext ?_))
  show min (Cert.ReferenceIdeal.RefValue.wrapIdx idx (ix4 b t (0 : Fin 1) (0 : Fin 1))).toInt.toNat 2047 = k.val
  rw [hw, hi, Int.toNat_natCast]
  omega

/-- The reference's gathered probability at (b, t), for a question id whose predecessor is a number k below 2048. -/
theorem pv_apply (pred : FVec Ideal S512x200x2048 .f32) (q : IVec (⟨2, ![512, 199]⟩ : Shape) 32) (b : Fin 512) (t : Fin 199)
    (k : Fin 2048) (hk : q (ix2 b t) - 1#32 = BitVec.ofNat 32 k.val) :
    Cert.ReferenceIdeal.RefValue.pv (F := Ideal) pred q (ix2 b t) = pred (ix3 b (⟨t.val, by omega⟩ : Fin 200) k) := by
  unfold Cert.ReferenceIdeal.RefValue.pv
  refine (shapeCast_apply _ _ (ix2 b t) (ix3 b t (0 : Fin 1)) (by
    rw [Shape.rowMajor_val_three, Shape.rowMajor_val_two]
    show (b.val * 199 + t.val) * 1 + 0 = b.val * 199 + t.val
    omega)).trans ?_
  refine (takeAlong_apply _ _ b t k ?_).trans ?_
  · refine (broadcastInDim_apply _ _ _ (ix3 b t (0 : Fin 1)) (ix2 b t) (fun a => by
      match a with
      | ⟨0, _⟩ => rfl
      | ⟨1, _⟩ => rfl)).trans ?_
    exact hk
  · exact extractStridedSlice_apply _ _ _ (ix3 b t k) (ix3 b (⟨t.val, by omega⟩ : Fin 200) k) (fun a => by
      match a with
      | ⟨0, _⟩ => show b.val = 0 + b.val; omega
      | ⟨1, _⟩ => show t.val = 0 + t.val; omega
      | ⟨2, _⟩ => show k.val = 0 + k.val; omega)

/-! ## The kernel's one-hot sum -/

/-- A one-hot sum over the 2048 questions against a word that is a number k below 2048 is the k-th term. -/
theorem onehot_sum {M : Type} [AddCommMonoid M] (f : Fin 2048 → M) (v : BitVec 32) (k : Fin 2048) (hk : v = BitVec.ofNat 32 k.val) :
    (∑ h : Fin 2048, if BitVec.ofNat 32 h.val = v then f h else 0) = f k := by
  have hk' : k.val < 2048 := k.isLt
  rw [Finset.sum_eq_single k]
  · rw [if_pos hk.symm]
  · intro h _ hne
    have hh : h.val < 2048 := h.isLt
    rw [if_neg]
    intro e
    apply hne
    rw [hk] at e
    have e2 := congrArg BitVec.toNat e
    rw [BitVec.toNat_ofNat, BitVec.toNat_ofNat, Nat.mod_eq_of_lt (by omega), Nat.mod_eq_of_lt (by omega)] at e2
    exact Fin.ext e2
  · intro h
    exact absurd (Finset.mem_univ k) h

/-- For a 32-bit word whose signed value lies in [1, 2048], the unsigned value lies there too, and the word less one
    has unsigned value one less. -/
theorem toNat_pred_of_range (w : BitVec 32) (hq : 0 < w.toInt ∧ w.toInt ≤ 2048) :
    0 < w.toNat ∧ w.toNat ≤ 2048 ∧ (w - 1#32).toNat = w.toNat - 1 := by
  have hw : w.toNat < 2 ^ 32 := w.isLt
  have hn : 0 < w.toNat ∧ w.toNat ≤ 2048 := by
    rw [BitVec.toInt_eq_toNat_cond] at hq
    split at hq <;> omega
  refine ⟨hn.1, hn.2, ?_⟩
  rw [BitVec.toNat_sub]
  show (2 ^ 32 - 1 + w.toNat) % 2 ^ 32 = w.toNat - 1
  omega

/-! ## The two sides meet -/

/-- The kernel's and the reference's gathered probability at student `b`, position `t < 199`. -/
theorem gather_eq (pred : FVec Ideal S512x200x2048 .f32) (me : IVec S512x200x3 32)
    (hq : ∀ i : S512x199.Idx, 0 < (qv me i).toInt ∧ (qv me i).toInt ≤ 2048) (b : Fin 512) (t : Fin 199) :
    G4 pred (qidxFull (qv me)) (ix2 b (⟨t.val, by omega⟩ : Fin 200))
      = Cert.ReferenceIdeal.RefValue.pv (F := Ideal) pred (Cert.ReferenceIdeal.RefValue.qv me) (ix2 b t) := by
  obtain ⟨h0, h1, h2⟩ := toNat_pred_of_range (qv me (ix2 b t)) (hq (ix2 b t))
  have hk : qv me (ix2 b t) - 1#32 = BitVec.ofNat 32 (qv me (ix2 b t) - 1#32).toNat :=
    BitVec.eq_of_toNat_eq (by rw [BitVec.toNat_ofNat, Nat.mod_eq_of_lt (by omega)])
  have hlt : (qv me (ix2 b t) - 1#32).toNat < 2048 := by omega
  refine Eq.trans ?_ (pv_apply pred (qv me) b t ⟨(qv me (ix2 b t) - 1#32).toNat, hlt⟩ hk).symm
  unfold G4
  show (∑ h : Fin 2048, if BitVec.ofNat 32 h.val = qidxFull (qv me) (ix2 b (⟨t.val, by omega⟩ : Fin 200))
    then pred (ix3 b (⟨t.val, by omega⟩ : Fin 200) h) else 0) = _
  rw [Cert.KernelIdeal.PadRead.qidxFull_lt (qv me) b t (hq (ix2 b t))]
  exact onehot_sum (fun h => pred (ix3 b (⟨t.val, by omega⟩ : Fin 200) h)) _ ⟨(qv me (ix2 b t) - 1#32).toNat, hlt⟩ hk

/-- Result 1 agrees. -/
theorem p_eq (pred : FVec Ideal S512x200x2048 .f32) (me : IVec S512x200x3 32)
    (hq : ∀ i : S512x199.Idx, 0 < (qv me i).toInt ∧ (qv me i).toInt ≤ 2048) :
    kP pred me = Cert.ReferenceIdeal.RefValue.refP (F := Ideal) pred me := by
  unfold kP Cert.ReferenceIdeal.RefValue.refP
  refine congrArg (fun x : FVec Ideal S512x199 .f32 => shapeCast S101888 x Cert.KernelIdeal.Gen.shapeCasts_S512x199_S101888) ?_
  funext j
  rw [eq_ix2 j]
  refine (extractStridedSlice_apply _ _ _ (ix2 (j 0) (j 1)) (ix2 (j 0) (⟨(j 1).val, by have := idx2_lt1 j; omega⟩ : Fin 200)) (fun a => by
    match a with
    | ⟨0, _⟩ => show (j 0).val = 0 + (j 0).val; omega
    | ⟨1, _⟩ => show (j 1).val = 0 + (j 1).val; omega)).trans ?_
  exact gather_eq pred me hq (j 0) (j 1)

end Cert.Bridge

end
-- ==== Proof.BridgeLoss.lean ====
/-
  The losses agree: per student, the kernel's sum over 200 padded positions is the reference's over 199 (the padded
  position has mask 0, so its term is 0); where the mask is 1 the two terms are one expression of the same gathered
  probability, and where it is 0 both are 0 (the mask is 0 or 1, and x * 0 = 0 for every extended real).
-/
import proofs.«401505_j76665166233883_3_alg».proof.Proof.BridgeP
import Idealize.ShloMosaic.PureOps.Ideal.Laws
import Idealize.ShloMosaic.Lib.ValueIdx
import Idealize.ShloMosaic.Lib.Pipeline.Value

noncomputable section

open scoped BigOperators

namespace Cert.Bridge

open Cert.KernelIdeal Cert.KernelIdeal.KValue Idealize.ShloMosaic Idealize.ShloMosaic.ValueIdx

namespace LossAux

/-! ## The two programs' host terms before the loss are the same terms -/

/-- The answers as floats. -/
theorem av_ref (me : IVec S512x200x3 32) : Cert.ReferenceIdeal.RefValue.av (F := Ideal) me = av (F := Ideal) me := rfl

/-- The keep mask of the question ids. -/
theorem vfv_ref (me : IVec S512x200x3 32) :
    Cert.ReferenceIdeal.RefValue.vfv (F := Ideal) (Cert.ReferenceIdeal.RefValue.qv me) = vfv (F := Ideal) (qv me) := rfl

/-! ## The mask is 0 or 1 -/

/-- A one-bit word read unsigned as an extended real is 0 or 1. -/
theorem uitofp_bit {s : Shape} (c : IVec s 1) (i : s.Idx) :
    (uitofp .f32 c : FVec Ideal s .f32) i = 0 ∨ (uitofp .f32 c : FVec Ideal s .f32) i = 1 := by
  show (((c i).toNat : ℝ) : EReal) = 0 ∨ (((c i).toNat : ℝ) : EReal) = 1
  rcases BitVec.eq_zero_or_eq_one (c i) with h | h
  · left; rw [h]; simp
  · right; rw [h]; simp

/-- The keep mask is the conversion of a one-bit array, so each entry is 0 or 1. -/
theorem vfv_bit (q : IVec S512x199 32) (i : S512x199.Idx) :
    vfv (F := Ideal) q i = 0 ∨ vfv (F := Ideal) q i = 1 := by
  unfold vfv
  exact uitofp_bit _ i

/-! ## One position's term -/

/-- With the mask 0 or 1 the guard on the probability is idle: at mask 1 the guard picks the probability and
    0 - x = -x; at mask 0 both sides are a product with 0. -/
theorem bceMasked_eq (a p v : EReal) (hv : v = 0 ∨ v = 1) :
    bceMasked a p v
      = (-(a * Ideal.log p + (Ideal.ofBits .f32 0x3F800000#32 - a) * Ideal.log1p (-p))) * v := by
  rcases hv with h | h
  · subst h; unfold bceMasked; rw [mul_zero, mul_zero]
  · subst h; unfold bceMasked
    rw [if_pos zero_lt_one, Ideal.ofBits_zero_f32, zero_sub, zero_sub]

/-! ## The reference's per-student loss read at a student -/

/-- The student index with the time coordinate put back is the pair (student, time). -/
theorem lift_ix (h : S512x199.Reduces [1] S512) (b : Fin 512) (k : Fin 199) :
    h.lift (ix1 b) k = ix2 b k := by
  funext c
  match c with
  | ⟨0, _⟩ => exact Fin.ext rfl
  | ⟨1, _⟩ => exact Fin.ext rfl

/-- The host's sum over the time axis, from zero, at a student: the sum over the 199 positions. -/
theorem hostSum_apply (x : FVec Ideal S512x199 .f32) (h' : S512x199.ReducesTo [1] S512) (hu : 0 < S_.numel) (b : Fin 512) :
    Host.reduceAdd (F := Ideal) x (constant S_ .f32 0x00000000#32) h' hu (ix1 b) = ∑ t : Fin 199, x (ix2 b t) := by
  have h : S512x199.Reduces [1] S512 := by decide
  show Ideal.hostReduceAdd h' x (Ideal.ofBits .f32 0x00000000#32) (ix1 b) = _
  refine (Ideal.hostReduceAdd_single h' h x _ (ix1 b)).trans ?_
  rw [Ideal.ofBits_zero_f32, zero_add]
  exact Finset.sum_congr rfl fun k _ => congrArg x (lift_ix h b k)

/-- The reference's per-student loss at student b: the masked cross-entropy terms summed over the 199 positions,
    divided by the larger of the mask's sum and 1. -/
theorem rowLoss_apply (p a vf : FVec Ideal S512x199 .f32) (b : Fin 512) :
    Cert.ReferenceIdeal.RefValue.rowLoss (F := Ideal) p a vf (ix1 b)
      = Ideal.div
          (∑ t : Fin 199, (-(a (ix2 b t) * Ideal.log (p (ix2 b t))
              + (Ideal.ofBits .f32 0x3F800000#32 - a (ix2 b t)) * Ideal.log1p (-(p (ix2 b t))))) * vf (ix2 b t))
          (max (∑ t : Fin 199, vf (ix2 b t)) (Ideal.ofBits .f32 0x3F800000#32)) := by
  unfold Cert.ReferenceIdeal.RefValue.rowLoss
  show Ideal.div (Host.reduceAdd (F := Ideal) _ _ _ _ (ix1 b))
      (max (Host.reduceAdd (F := Ideal) _ _ _ _ (ix1 b)) (Ideal.ofBits .f32 0x3F800000#32)) = _
  rw [hostSum_apply, hostSum_apply]
  rfl

/-! ## The kernel's per-student loss read at a student -/

/-- The kernel's per-student loss at student b. -/
theorem G5_apply (pred : FVec Ideal S512x200x2048 .f32) (qf : IVec S512x200 32) (vff aff : FVec Ideal S512x200 .f32)
    (b : Fin 512) :
    G5 pred qf vff aff (ix2 b (0 : Fin 1))
      = Ideal.div (∑ t : Fin 200, bceMasked (aff (ix2 b t)) (G4 pred qf (ix2 b t)) (vff (ix2 b t)))
          (max (∑ t : Fin 200, vff (ix2 b t)) (Ideal.ofBits .f32 0x3F800000#32)) := rfl

/-- A sum over the 200 padded positions whose last term is zero is the sum over the first 199. -/
theorem sum200 (f : Fin 200 → EReal) (g : Fin 199 → EReal)
    (hlt : ∀ t : Fin 199, f (⟨t.val, by omega⟩ : Fin 200) = g t) (hlast : f (⟨199, by omega⟩ : Fin 200) = 0) :
    ∑ t : Fin 200, f t = ∑ t : Fin 199, g t := by
  refine (Fin.sum_univ_castSucc (n := 199) f).trans ?_
  have e : f (Fin.last 199) = 0 := hlast
  rw [e, add_zero]
  exact Finset.sum_congr rfl fun t _ => hlt t

/-! ## Per student the two losses agree -/

/-- Per student, the kernel's mean over 200 padded positions is the reference's over 199: the padded position's mask
    is 0, so it adds nothing to either sum; at the other positions the padded arrays read the unpadded ones, the
    gathered probabilities agree, and the masked term is the reference's term. -/
theorem row_eq (pred : FVec Ideal S512x200x2048 .f32) (me : IVec S512x200x3 32)
    (hq : ∀ i : S512x199.Idx, 0 < (qv me i).toInt ∧ (qv me i).toInt ≤ 2048) (b : Fin 512) :
    G5 pred (qidxFull (qv me)) (padCol (vfv (qv me))) (padCol (av me)) (ix2 b (0 : Fin 1))
      = Cert.ReferenceIdeal.RefValue.rowLoss (F := Ideal)
          (Cert.ReferenceIdeal.RefValue.pv (F := Ideal) pred (Cert.ReferenceIdeal.RefValue.qv me))
          (Cert.ReferenceIdeal.RefValue.av (F := Ideal) me)
          (Cert.ReferenceIdeal.RefValue.vfv (F := Ideal) (Cert.ReferenceIdeal.RefValue.qv me)) (ix1 b) := by
  rw [G5_apply, rowLoss_apply, av_ref, vfv_ref]
  have hden : ∑ t : Fin 200, padCol (vfv (F := Ideal) (qv me)) (ix2 b t) = ∑ t : Fin 199, vfv (F := Ideal) (qv me) (ix2 b t) :=
    sum200 _ _ (fun t => PadRead.padCol_lt _ b t) (PadRead.padCol_last _ b)
  have hnum : ∑ t : Fin 200, bceMasked (padCol (av (F := Ideal) me) (ix2 b t)) (G4 pred (qidxFull (qv me)) (ix2 b t))
        (padCol (vfv (F := Ideal) (qv me)) (ix2 b t))
      = ∑ t : Fin 199, (-(av (F := Ideal) me (ix2 b t)
            * Ideal.log (Cert.ReferenceIdeal.RefValue.pv (F := Ideal) pred (Cert.ReferenceIdeal.RefValue.qv me) (ix2 b t))
          + (Ideal.ofBits .f32 0x3F800000#32 - av (F := Ideal) me (ix2 b t))
            * Ideal.log1p (-(Cert.ReferenceIdeal.RefValue.pv (F := Ideal) pred (Cert.ReferenceIdeal.RefValue.qv me) (ix2 b t)))))
          * vfv (F := Ideal) (qv me) (ix2 b t) := by
    refine sum200 _ _ (fun t => ?_) ?_
    · beta_reduce
      rw [PadRead.padCol_lt, PadRead.padCol_lt, gather_eq pred me hq b t]
      exact bceMasked_eq _ _ _ (vfv_bit _ _)
    · beta_reduce
      rw [PadRead.padCol_last (vfv (F := Ideal) (qv me)) b]
      unfold bceMasked
      exact mul_zero _
  rw [hnum, hden]

end LossAux

/-- Result 0 agrees. -/
theorem loss_eq (pred : FVec Ideal S512x200x2048 .f32) (me : IVec S512x200x3 32)
    (hq : ∀ i : S512x199.Idx, 0 < (qv me i).toInt ∧ (qv me i).toInt ≤ 2048) :
    kLoss pred me = Cert.ReferenceIdeal.RefValue.refLoss (F := Ideal) pred me := by
  have key : shapeCast S512 (G5 pred (qidxFull (qv me)) (padCol (vfv (qv me))) (padCol (av me))) Gen.shapeCasts_S512x1_S512
      = Cert.ReferenceIdeal.RefValue.rowLoss (F := Ideal)
          (Cert.ReferenceIdeal.RefValue.pv (F := Ideal) pred (Cert.ReferenceIdeal.RefValue.qv me))
          (Cert.ReferenceIdeal.RefValue.av (F := Ideal) me)
          (Cert.ReferenceIdeal.RefValue.vfv (F := Ideal) (Cert.ReferenceIdeal.RefValue.qv me)) := by
    funext j
    obtain ⟨b, rfl⟩ : ∃ b : Fin 512, j = ix1 b := ⟨j 0, eq_ix1 j⟩
    refine (shapeCast_apply _ Gen.shapeCasts_S512x1_S512 (ix1 b) (ix2 b (0 : Fin 1)) (by
      rw [Shape.rowMajor_val_two, Shape.rowMajor_val_one]; show b.val * 1 + 0 = b.val; omega)).trans ?_
    exact LossAux.row_eq pred me hq b
  unfold kLoss Cert.ReferenceIdeal.RefValue.refLoss
  exact congrArg
    (fun X => Host.reduceAdd (F := Ideal) X (constant S_ .f32 0x00000000#32) Gen.reducesTo_S512_S_d0 Gen.h_S_) key

end Cert.Bridge

end
-- ==== Proof.lean ====
/-
  The certificate's proof: the kernel (a one-hot gather of one probability per student and time step out of 2048,
  fused with a masked binary cross-entropy averaged per student and summed over the students) against the jnp
  reference (take_along_axis, then the same cross-entropy), equal over the extended reals wherever every question id
  q = me[:, 1:, 0] lies in [1, 2048].

  Why the two agree there. The kernel gathers at the column min(2047, max(0, q - 1)), the reference at q - 1 wrapped
  once if negative and filled where still out of range; for 1 ≤ q ≤ 2048 both are the column q - 1, the kernel's
  sum over the 2048 questions of "pred if this is the column, else 0" is the one entry pred[b, t, q - 1], and the
  reference's bounds mask is true. The answers and the keep mask are computed by the same host operations in both
  programs. The kernel pads the 199 positions by one with mask 0, so the padded position adds 0 to both of its sums;
  where the mask is 1 the kernel's guarded probability is the gathered one and the two cross-entropy terms are one
  expression, and where it is 0 both terms are a product with 0. No distributive law is used, so finiteness of pred is
  not needed.

  The three frames: the kernel's two are the generated frame certificates; the reference's is its run
  (Proof/RefRun.lean) with the results dropped. The idealization rewrote nothing, so `preserves` is trivial.
-/
import proofs.«401505_j76665166233883_3_alg».proof.Defs
import proofs.«401505_j76665166233883_3_alg».proof.Proof.Gen.Kernel
import proofs.«401505_j76665166233883_3_alg».proof.Proof.Gen.Kernel.Frame
import proofs.«401505_j76665166233883_3_alg».proof.Proof.Gen.KernelIdeal
import proofs.«401505_j76665166233883_3_alg».proof.Proof.Gen.KernelIdeal.Frame
import proofs.«401505_j76665166233883_3_alg».proof.Proof.Gen.ReferenceIdeal
import proofs.«401505_j76665166233883_3_alg».proof.Proof.Gen.Pre_finite_inputs
import proofs.«401505_j76665166233883_3_alg».proof.Proof.RefRun
import proofs.«401505_j76665166233883_3_alg».proof.Proof.KRun
import proofs.«401505_j76665166233883_3_alg».proof.Proof.PreRead
import proofs.«401505_j76665166233883_3_alg».proof.Proof.BridgeLoss

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the three results dropped. -/
theorem frame_referenceIdeal : Cert.frame_ReferenceIdeal := fun m ρ _ =>
  (θ_run Cert.ReferenceIdeal.defs _ _).mono (fun _ h c => ⟨(h c).2.2.2.1, (h c).2.2.2.2⟩)
    (Cert.ReferenceIdeal.RefValue.run (F := Ideal) m ρ)

theorem preserves : Cert.preserves_Kernel_KernelIdeal := trivial

/-- The answers are flattened by the same operations in both programs. -/
theorem answers_eq (me : IVec Cert.KernelIdeal.S512x200x3 32) :
    Cert.ReferenceIdeal.RefValue.refA (F := Ideal) me = Cert.KernelIdeal.KValue.kA me := rfl

/-- Both programs run; the kernel's three results are `kLoss`, `kP`, `kA` of the arguments, the reference's are
    `refLoss`, `refP`, `refA` of the same arguments, and under the precondition's range of the question ids these agree. -/
theorem algebraic : Cert.algebraic_KernelIdeal_ReferenceIdeal := by
  intro m ρ m' ρ' hpre hagree
  have hq : ∀ (c : Dev Cert.KernelIdeal.nD) (i : Cert.KernelIdeal.S512x199.Idx),
      0 < (Cert.KernelIdeal.KValue.qv (m ((c.tc : Thread Cert.KernelIdeal.nD Cert.KernelIdeal.τ).loc Cert.KernelIdeal.main_arg1)) i).toInt
        ∧ (Cert.KernelIdeal.KValue.qv (m ((c.tc : Thread Cert.KernelIdeal.nD Cert.KernelIdeal.τ).loc Cert.KernelIdeal.main_arg1)) i).toInt ≤ 2048 :=
    fun c i => Cert.KernelIdeal.PreRead.q_range _ _ (hpre c) i
  refine ⟨_, _, _, Cert.KernelIdeal.KRun.run m ρ, ?_⟩
  refine (θ_run Cert.ReferenceIdeal.defs _ _).mono (fun _ h c => ?_) (Cert.ReferenceIdeal.RefValue.run (F := Ideal) m' ρ')
  obtain ⟨h0, h1, h2, h3, h4⟩ := h c
  refine ⟨?_, ?_, ?_, h3, h4⟩
  · rw [h0, (hagree c).1, (hagree c).2]
    exact (Cert.Bridge.loss_eq _ _ (hq c)).symm
  · rw [h1, (hagree c).1, (hagree c).2]
    exact (Cert.Bridge.p_eq _ _ (hq c)).symm
  · rw [h2, (hagree c).2]
    exact answers_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
